-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x768 : Shape := ⟨2, ![256, 768]⟩
abbrev S256x128x768 : Shape := ⟨3, ![256, 128, 768]⟩
abbrev S_ : Shape := ⟨0, ![]⟩

class Facts : Prop where
  bcast_S_S256x768 : S_.BroadcastsInDim S256x768 (![] : Fin 0 → Fin S256x768.rank)
  reducesTo_S256x768_S_d0_1 : S256x768.ReducesTo [0, 1] S_
  h_S_ : 0 < S_.numel
  bcast_S_S256x128x768 : S_.BroadcastsInDim S256x128x768 (![] : Fin 0 → Fin S256x128x768.rank)
  reducesTo_S256x128x768_S_d0_1_2 : S256x128x768.ReducesTo [0, 1, 2] S_

variable [Facts]

def fn {F : FTy → Type} [FloatOps F] (main_arg0 : FVec F S256x768 .f32) (main_arg1 : FVec F S256x128x768 .f32) : IVec S_ 1 :=
  let main_v0 : FVec F S256x768 .f32 := Host.absf main_arg0
  let main_cst : FVec F S_ .f32 := constant S_ .f32 0x7F800000#32
  let main_v1 : FVec F S256x768 .f32 := broadcastInDim S256x768 ![] bcast_S_S256x768 main_cst
  let main_v2 : IVec S256x768 1 := cmpf .olt main_v0 main_v1
  let main_c : IVec S_ 1 := constantI S_ 1 1#1
  let main_v3 : IVec S_ 1 := (fun x v => Host.reduce IntOp.andi x v reducesTo_S256x768_S_d0_1 h_S_) main_v2 main_c
  let main_v4 : FVec F S256x128x768 .f32 := Host.absf main_arg1
  let main_cst_0 : FVec F S_ .f32 := constant S_ .f32 0x7F800000#32
  let main_v5 : FVec F S256x128x768 .f32 := broadcastInDim S256x128x768 ![] bcast_S_S256x128x768 main_cst_0
  let main_v6 : IVec S256x128x768 1 := cmpf .olt main_v4 main_v5
  let main_c_1 : IVec S_ 1 := constantI S_ 1 1#1
  let main_v7 : IVec S_ 1 := (fun x v => Host.reduce IntOp.andi x v reducesTo_S256x128x768_S_d0_1_2 h_S_) main_v6 main_c_1
  let main_v8 : IVec S_ 1 := andi main_v3 main_v7
  main_v8
-- ==== Kernel.lean ====
abbrev S256x768 : Shape := ⟨2, ![256, 768]⟩
abbrev S256x128x768 : Shape := ⟨3, ![256, 128, 768]⟩
abbrev S256x256 : Shape := ⟨2, ![256, 256]⟩
abbrev S64x128 : Shape := ⟨2, ![64, 128]⟩
abbrev S128x128x128 : Shape := ⟨3, ![128, 128, 128]⟩
abbrev S64x128x128 : Shape := ⟨3, ![64, 128, 128]⟩
abbrev S16384x128 : Shape := ⟨2, ![16384, 128]⟩
abbrev S128x16384 : Shape := ⟨2, ![128, 16384]⟩
abbrev S64x16384 : Shape := ⟨2, ![64, 16384]⟩
abbrev S256 : Shape := ⟨1, ![256]⟩
abbrev S_ : Shape := ⟨0, ![]⟩
abbrev S256x1 : Shape := ⟨2, ![256, 1]⟩
abbrev S256x2 : Shape := ⟨2, ![256, 2]⟩

abbrev nBuf : Space → Nat
  | .hbm => 84
  | .vmem => 7
  | .smem => 0
  | _ => 0

abbrev bufTy : (tb : Table) → Fin (tcTables nBuf tb) → BufTy
  | .hbm, ⟨0, _⟩ => ⟨S256x768, .f32⟩
  | .hbm, ⟨1, _⟩ => ⟨S256x128x768, .f32⟩
  | .hbm, ⟨2, _⟩ => ⟨S256x256, .f32⟩
  | .hbm, ⟨3, _⟩ => ⟨S256, .i32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x1, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256x1, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1, .f32⟩
  | .hbm, ⟨33, _⟩ => ⟨S256x256, .f32⟩
  | .hbm, ⟨34, _⟩ => ⟨S256x256, .f32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S_, .i32⟩
  | .hbm, ⟨43, _⟩ => ⟨S256, .i32⟩
  | .hbm, ⟨44, _⟩ => ⟨S256, .i1⟩
  | .hbm, ⟨45, _⟩ => ⟨S_, .i32⟩
  | .hbm, ⟨46, _⟩ => ⟨S256, .i32⟩
  | .hbm, ⟨47, _⟩ => ⟨S256, .i32⟩
  | .hbm, ⟨48, _⟩ => ⟨S256, .i32⟩
  | .hbm, ⟨49, _⟩ => ⟨S256x1, .i32⟩
  | .hbm, ⟨50, _⟩ => ⟨S256x1, .i32⟩
  | .hbm, ⟨51, _⟩ => ⟨S256x2, .i32⟩
  | .hbm, ⟨52, _⟩ => ⟨S256, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S256, .i32⟩
  | .hbm, ⟨60, _⟩ => ⟨S256, .i1⟩
  | .hbm, ⟨61, _⟩ => ⟨S_, .i32⟩
  | .hbm, ⟨62, _⟩ => ⟨S256, .i32⟩
  | .hbm, ⟨63, _⟩ => ⟨S256, .i32⟩
  | .hbm, ⟨64, _⟩ => ⟨S256, .i32⟩
  | .hbm, ⟨65, _⟩ => ⟨S_, .i32⟩
  | .hbm, ⟨66, _⟩ => ⟨S256, .i32⟩
  | .hbm, ⟨67, _⟩ => ⟨S256, .i1⟩
  | .hbm, ⟨68, _⟩ => ⟨S_, .i32⟩
  | .hbm, ⟨69, _⟩ => ⟨S256, .i32⟩
  | .hbm, ⟨70, _⟩ => ⟨S256, .i32⟩
  | .hbm, ⟨71, _⟩ => ⟨S256, .i32⟩
  | .hbm, ⟨72, _⟩ => ⟨S256x1, .i32⟩
  | .hbm, ⟨73, _⟩ => ⟨S256x1, .i32⟩
  | .hbm, ⟨74, _⟩ => ⟨S256x2, .i32⟩
  | .hbm, ⟨75, _⟩ => ⟨S256, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .local _ .vmem, ⟨0, _⟩ => ⟨S64x128, .f32⟩
  | .local _ .vmem, ⟨1, _⟩ => ⟨S64x128, .f32⟩
  | .local _ .vmem, ⟨2, _⟩ => ⟨S128x128x128, .f32⟩
  | .local _ .vmem, ⟨3, _⟩ => ⟨S128x128x128, .f32⟩
  | .local _ .vmem, ⟨4, _⟩ => ⟨S64x128, .f32⟩
  | .local _ .vmem, ⟨5, _⟩ => ⟨S64x128, .f32⟩
  | .local _ .vmem, ⟨6, _⟩ => ⟨S64x128x128, .f32⟩
  | _, _ => ⟨S256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v2 : Ref sig .tc := ⟨.hbm, 18, rfl⟩
abbrev main_v3 : Ref sig .tc := ⟨.hbm, 19, rfl⟩
abbrev main_call1_cst : Ref sig .tc := ⟨.hbm, 20, rfl⟩
abbrev main_call1_v0 : Ref sig .tc := ⟨.hbm, 21, rfl⟩
abbrev main_call1_cst_0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_1 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_v4 : Ref sig .tc := ⟨.hbm, 34, rfl⟩
abbrev main_c : Ref sig .tc := ⟨.hbm, 35, rfl⟩
abbrev main_v5 : Ref sig .tc := ⟨.hbm, 36, rfl⟩
abbrev main_v6 : Ref sig .tc := ⟨.hbm, 37, rfl⟩
abbrev main_c_0 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_c_1 : Ref sig .tc := ⟨.hbm, 42, rfl⟩
abbrev main_v10 : Ref sig .tc := ⟨.hbm, 43, rfl⟩
abbrev main_v11 : Ref sig .tc := ⟨.hbm, 44, rfl⟩
abbrev main_c_2 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst : Ref sig .tc := ⟨.hbm, 53, rfl⟩
abbrev main_v19 : Ref sig .tc := ⟨.hbm, 54, rfl⟩
abbrev main_cst_3 : Ref sig .tc := ⟨.hbm, 55, rfl⟩
abbrev main_v20 : Ref sig .tc := ⟨.hbm, 56, rfl⟩
abbrev main_v21 : Ref sig .tc := ⟨.hbm, 57, rfl⟩
abbrev main_c_4 : Ref sig .tc := ⟨.hbm, 58, rfl⟩
abbrev main_v22 : Ref sig .tc := ⟨.hbm, 59, rfl⟩
abbrev main_v23 : Ref sig .tc := ⟨.hbm, 60, rfl⟩
abbrev main_c_5 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_c_6 : Ref sig .tc := ⟨.hbm, 65, rfl⟩
abbrev main_v27 : Ref sig .tc := ⟨.hbm, 66, rfl⟩
abbrev main_v28 : Ref sig .tc := ⟨.hbm, 67, rfl⟩
abbrev main_c_7 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_8 : Ref sig .tc := ⟨.hbm, 76, rfl⟩
abbrev main_v36 : Ref sig .tc := ⟨.hbm, 77, rfl⟩
abbrev main_cst_9 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_10 : Ref sig .tc := ⟨.hbm, 82, rfl⟩
abbrev main_v40 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 6], ![false, false, false]⟩

def k0_cond2 (i : grid0.Coords) : BitVec 1 :=
  let arg2 : BitVec 32 := BitVec.ofNat 32 (i 2).val
  let c5_i32 : BitVec 32 := 5#32
  let v16 : BitVec 1 := Scalar.cmpi .eq arg2 c5_i32
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S128x128x128_S128x128x128_0_0_0 : ∀ a, (![0, 0, 0] : Fin 3 → Nat) a + S128x128x128.size a ≤ S128x128x128.size a
  h_S128x128x128 : 0 < S128x128x128.numel
  shapeCasts_S128x128x128_S16384x128 : S128x128x128.ShapeCasts S16384x128
  transposes_S16384x128_p1_0_S128x16384 : S16384x128.Transposes [1, 0] S128x16384
  shapeCasts_S64x16384_S64x128x128 : S64x16384.ShapeCasts S64x128x128
  reduces_S64x128x128_S64x128 : S64x128x128.Reduces [2] S64x128
  reducesTo_S256x256_S256_d1 : S256x256.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  concatenates_S256x1_S256x1_S256x2_d1 : Shape.Concatenates [S256x1, S256x1] S256x2 1
  reducesTo_S256_S_d0 : S256.ReducesTo [0] S_
  dot_S64x128_S128x16384_S64x16384_1_0_0_1_n_n_wf : DotDims.WF S64x128 S128x16384 S64x16384 [1] [0] [0] [1] [] []
  gather_S256x256_S256x2_S256_n_01_n_n_01_1_11_wf : GatherDims.WF S256x256 S256x2 S256 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S256x768.size a
  hwx0_0 : ∀ i : grid0.Coords, EltTy.bits .f32 = 32 ∨ (Rect.block (s := S256x768) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x128.size a ≤ S256x128x768.size a
  hwx0_1 : ∀ i : grid0.Coords, EltTy.bits .f32 = 32 ∨ (Rect.block (s := S256x128x768) S128x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S256x256.size a
  hwx0_2 : ∀ i : grid0.Coords, EltTy.bits .f32 = 32 ∨ (Rect.block (s := S256x256) S64x128.size (cc0_transform_2 i) (hinb0_2 i)).WholeWords (EltTy.packing .f32)

variable [Facts₀]

def dot_S64x128_S128x16384_S64x16384_1_0_0_1_n_n : DotDims S64x128 S128x16384 S64x16384 where
  lhsContracting := [1]
  rhsContracting := [0]
  lhsNonContracting := [0]
  rhsNonContracting := [1]
  lhsBatch := []
  rhsBatch := []
  wf := dot_S64x128_S128x16384_S64x16384_1_0_0_1_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

abbrev win0_0 : Pipeline.Window sig grid0 :=
  Pipeline.Window.ofSpec (Memref.whole main_arg0) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S256x768 : Shape := ⟨2, ![256, 768]⟩
abbrev S256x128x768 : Shape := ⟨3, ![256, 128, 768]⟩
abbrev S256x256x128 : Shape := ⟨3, ![256, 256, 128]⟩
abbrev S_ : Shape := ⟨0, ![]⟩
abbrev S256x256 : Shape := ⟨2, ![256, 256]⟩
abbrev S256 : Shape := ⟨1, ![256]⟩
abbrev S256x1 : Shape := ⟨2, ![256, 1]⟩
abbrev S256x2 : Shape := ⟨2, ![256, 2]⟩

abbrev nBuf : Space → Nat
  | .hbm => 89
  | .vmem => 0
  | .smem => 0
  | _ => 0

abbrev bufTy : (tb : Table) → Fin (tcTables nBuf tb) → BufTy
  | .hbm, ⟨0, _⟩ => ⟨S256x768, .f32⟩
  | .hbm, ⟨1, _⟩ => ⟨S256x128x768, .f32⟩
  | .hbm, ⟨2, _⟩ => ⟨S256x256x128, .f32⟩
  | .hbm, ⟨3, _⟩ => ⟨S_, .f32⟩
  | .hbm, ⟨4, _⟩ => ⟨S256x256x128, .f32⟩
  | .hbm, ⟨5, _⟩ => ⟨S256x256x128, .f32⟩
  | .hbm, ⟨6, _⟩ => ⟨S_, .f32⟩
  | .hbm, ⟨7, _⟩ => ⟨S256x256, .f32⟩
  | .hbm, ⟨8, _⟩ => ⟨S256, .i32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S256x1, .f32⟩
  | .hbm, ⟨22, _⟩ => ⟨S256x256, .f32⟩
  | .hbm, ⟨23, _⟩ => ⟨S256x256, .f32⟩
  | .hbm, ⟨24, _⟩ => ⟨S256x256, .f32⟩
  | .hbm, ⟨25, _⟩ => ⟨S_, .f32⟩
  | .hbm, ⟨26, _⟩ => ⟨S256, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S256x1, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256, .f32⟩
  | .hbm, ⟨36, _⟩ => ⟨S256x1, .f32⟩
  | .hbm, ⟨37, _⟩ => ⟨S256x1, .f32⟩
  | .hbm, ⟨38, _⟩ => ⟨S256x256, .f32⟩
  | .hbm, ⟨39, _⟩ => ⟨S256x256, .f32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S_, .i32⟩
  | .hbm, ⟨48, _⟩ => ⟨S256, .i32⟩
  | .hbm, ⟨49, _⟩ => ⟨S256, .i1⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256, .i32⟩
  | .hbm, ⟨54, _⟩ => ⟨S256x1, .i32⟩
  | .hbm, ⟨55, _⟩ => ⟨S256x1, .i32⟩
  | .hbm, ⟨56, _⟩ => ⟨S256x2, .i32⟩
  | .hbm, ⟨57, _⟩ => ⟨S256, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .i32⟩
  | .hbm, ⟨64, _⟩ => ⟨S256, .i32⟩
  | .hbm, ⟨65, _⟩ => ⟨S256, .i1⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S256, .i32⟩
  | .hbm, ⟨70, _⟩ => ⟨S_, .i32⟩
  | .hbm, ⟨71, _⟩ => ⟨S256, .i32⟩
  | .hbm, ⟨72, _⟩ => ⟨S256, .i1⟩
  | .hbm, ⟨73, _⟩ => ⟨S_, .i32⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S256x1, .i32⟩
  | .hbm, ⟨78, _⟩ => ⟨S256x1, .i32⟩
  | .hbm, ⟨79, _⟩ => ⟨S256x2, .i32⟩
  | .hbm, ⟨80, _⟩ => ⟨S256, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v5 : Ref sig .tc := ⟨.hbm, 23, rfl⟩
abbrev main_v6 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v7 : Ref sig .tc := ⟨.hbm, 39, rfl⟩
abbrev main_c : Ref sig .tc := ⟨.hbm, 40, rfl⟩
abbrev main_v8 : Ref sig .tc := ⟨.hbm, 41, rfl⟩
abbrev main_v9 : Ref sig .tc := ⟨.hbm, 42, rfl⟩
abbrev main_c_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_2 : Ref sig .tc := ⟨.hbm, 47, rfl⟩
abbrev main_v13 : Ref sig .tc := ⟨.hbm, 48, rfl⟩
abbrev main_v14 : Ref sig .tc := ⟨.hbm, 49, rfl⟩
abbrev main_c_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_4 : Ref sig .tc := ⟨.hbm, 58, rfl⟩
abbrev main_v22 : Ref sig .tc := ⟨.hbm, 59, rfl⟩
abbrev main_cst_5 : Ref sig .tc := ⟨.hbm, 60, rfl⟩
abbrev main_v23 : Ref sig .tc := ⟨.hbm, 61, rfl⟩
abbrev main_v24 : Ref sig .tc := ⟨.hbm, 62, rfl⟩
abbrev main_c_6 : Ref sig .tc := ⟨.hbm, 63, rfl⟩
abbrev main_v25 : Ref sig .tc := ⟨.hbm, 64, rfl⟩
abbrev main_v26 : Ref sig .tc := ⟨.hbm, 65, rfl⟩
abbrev main_c_7 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_c_8 : Ref sig .tc := ⟨.hbm, 70, rfl⟩
abbrev main_v30 : Ref sig .tc := ⟨.hbm, 71, rfl⟩
abbrev main_v31 : Ref sig .tc := ⟨.hbm, 72, rfl⟩
abbrev main_c_9 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_10 : Ref sig .tc := ⟨.hbm, 81, rfl⟩
abbrev main_v39 : Ref sig .tc := ⟨.hbm, 82, rfl⟩
abbrev main_cst_11 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_12 : Ref sig .tc := ⟨.hbm, 87, rfl⟩
abbrev main_v43 : Ref sig .tc := ⟨.hbm, 88, rfl⟩

abbrev nD : Nat := 1
abbrev τ : Topo := Topo.v7x

variable {F : FTy → Type} [FloatOps F]

class Facts₀ : Prop where
  bcast_S_S256x256x128 : S_.BroadcastsInDim S256x256x128 (![] : Fin 0 → Fin S256x256x128.rank)
  reducesTo_S256x256x128_S256x256_d2 : S256x256x128.ReducesTo [2] S256x256
  h_S_ : 0 < S_.numel
  reducesTo_S256x256_S256_d1 : S256x256.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  transposes_S256x256_S256x256_1_0 : S256x256.Transposes [1, 0] S256x256
  concatenates_S256x1_S256x1_S256x2_d1 : Shape.Concatenates [S256x1, S256x1] S256x2 1
  reducesTo_S256_S_d0 : S256.ReducesTo [0] S_
  dot_S256x768_S256x128x768_S256x256x128_1_2_0_01_n_n_wf : DotDims.WF S256x768 S256x128x768 S256x256x128 [1] [2] [0] [0, 1] [] []
  gather_S256x256_S256x2_S256_n_01_n_n_01_1_11_wf : GatherDims.WF S256x256 S256x2 S256 [] [0, 1] [] [0, 1] [] 1 ![1, 1]

variable [Facts₀]

def dot_S256x768_S256x128x768_S256x256x128_1_2_0_01_n_n : DotDims S256x768 S256x128x768 S256x256x128 where
  lhsContracting := [1]
  rhsContracting := [2]
  lhsNonContracting := [0]
  rhsNonContracting := [0, 1]
  lhsBatch := []
  rhsBatch := []
  wf := dot_S256x768_S256x128x768_S256x256x128_1_2_0_01_n_n_wf
def gather_S256x256_S256x2_S256_n_01_n_n_01_1_11 : GatherDims S256x256 S256x2 S256 where
  offsetDims := []
  collapsedSliceDims := [0, 1]
  operandBatchingDims := []
  startIndicesBatchingDims := []
  startIndexMap := [0, 1]
  indexVectorDim := 1
  sliceSizes := ![1, 1]
  wf := gather_S256x256_S256x2_S256_n_01_n_n_01_1_11_wf

class Facts : Prop extends Facts₀ where

variable [Facts]
-- ==== Proof.BitsLaunch.lean ====
/-
  The similarity kernel's program around its one pallas_call. @main is the call — a 4 x 2 x 6 grid whose last axis
  walks the six 128-wide slabs of the contracted axis d — followed by 81 host operations: the iota of the targets, a
  log-softmax of the 256 x 256 similarity matrix, its transpose, a log-softmax of that, and for each the gather of the
  diagonal, its sum, the division by 256, the negation; their sum halved is the loss. None of those later lines
  writes an argument or the similarity matrix, none allocates, and each touches unscoped TensorCore buffers only:
  that is all the launch asks of them. Here also: a window's block at a grid point as read off the array the region
  finds; which grid points open an accumulation (slab 0) and which close one (slab 5), in closed form over the 48
  points; and that the result window is idle and not written back except where an accumulation closes.
-/
import proofs.«153875_j13314398618441_1_alg».proof.Proof.Gen.Kernel.Launch
import proofs.«153875_j13314398618441_1_alg».proof.Proof.Gen.Kernel.Skeleton
import proofs.«153875_j13314398618441_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations after the call, in program order. -/
abbrev lossOps : List (List (HloOp τ sig (Elt F))) := [hostOps1, hostOps1_1, hostOps1_2, hostOps1_3, hostOps1_4]

/-- The TensorCore buffers as the region finds them: the launch contents (no host operation runs before the call). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 4000000 in
/-- @main is the call continued by the later lines, holding the buffers at the launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((lossOps (F := F)).map StableHlo.seq)) :=
  Pipeline.hmain_around cfgs 0 defs₀ 𝒱₀ m main [] lossOps (by simp only [List.Forall])
    (by simp only [List.Forall]) main_chain

/-- Every later line touches only unscoped TensorCore buffers; nothing is prefetched, so each is an array of the
    pipeline or a buffer that bypasses the region. -/
theorem loss_sub : ∀ ops ∈ (lossOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None allocates. -/
theorem loss_fresh : ∀ ops ∈ (lossOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 1600000 in
/-- None writes v, T or the similarity matrix: each writes its own result buffer, a different one. -/
theorem loss_keeps : ∀ ops ∈ (lossOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 64 x 128 block of v is in its staging buffer at every point, for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the 128 x 128 x 128 block of T. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two arguments end as they began -/

/-- From a run to the launch's post: v and T are staged inputs, so each ends at its region-entry contents, which are
    the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) lossOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## Where an accumulation opens and where it closes -/

/-- The body's first branch: the point is on slab 0 of the contracted axis. -/
abbrev opens (i : grid0.Coords) : Prop := (Scalar.cmpi .ne (Scalar.extui (Scalar.cmpi .eq (BitVec.ofNat 32 (i 2).val) 0#32)) 0#32) = 1#1
/-- The grid's last axis is the fastest, so those are the points ≡ 0 (mod 6). -/
theorem opens_iff : ∀ t : Fin cfg0.N, opens (grid0.coords t) ↔ t.val % 6 = 0 :=
  (by decide +kernel : ∀ t : Fin grid0.N, opens (grid0.coords t) ↔ t.val % 6 = 0)

/-- The body's second branch: the point is on slab 5, the last. -/
abbrev closes (i : grid0.Coords) : Prop := k0_cond2 i = 1#1
/-- Those are the points ≡ 5 (mod 6). -/
theorem closes_iff : ∀ t : Fin cfg0.N, closes (grid0.coords t) ↔ t.val % 6 = 5 :=
  (by decide +kernel : ∀ t : Fin grid0.N, closes (grid0.coords t) ↔ t.val % 6 = 5)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the closing points the body stores nothing into the result window, -/
theorem idleAt0_2 : ∀ t : Fin cfg0.N, ¬closes (grid0.coords t) → cfg0.idle 2 (grid0.coords t) = true := by decide +kernel
/-- and the pipeline does not write its block back there. -/
theorem noFlush0_2 : ∀ t : Fin cfg0.N, ¬closes (grid0.coords t) → (cfg0.win 2).flush t = false := by decide +kernel
/-- On them it does store. -/
theorem liveAt0_2 : ∀ t : Fin cfg0.N, closes (grid0.coords t) → cfg0.idle 2 (grid0.coords t) = false := by decide +kernel

/-! ## The body's memrefs -/

/-- One staging buffer of the result window, through which its contents are stated. -/
abbrev VO0_2 : View sig .tc .vmem S64x128 .f32 := (Memref.whole cc0_stg2_0 : Memref sig .tc .vmem S64x128 .f32).view
/-- Each window's current staging memref at point `t`, as the pipeline passes it, and its wholeness. -/
abbrev ms0_0 (t : Fin cfg0.N) : Memref sig .tc .vmem S64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
/-- The 64 x 128 x 128 accumulator, a scoped buffer of the kernel's own passed beside the windows. -/
abbrev accM : Memref sig .tc .vmem S64x128x128 .f32 := Memref.whole cc0_scratch0
/-- The accumulator as a view: what it holds is stated through it. -/
abbrev accV : View sig .tc .vmem S64x128x128 .f32 := accM.view

/-- The launch's invariant with the accumulator as a memref owned at some contents. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Region

end
-- ==== Proof.BitsRunOpen.lean ====
/-
  The body on an OPENING point (slab 0 of the contracted axis, not the last slab). It loads the accumulator (the
  value is never used), stores zeros over all of it, loads the v block and the T block, loads the accumulator back
  (the zeros just stored), and stores zeros + v·Tᵀ over all of it; it stores nothing into the result window.
  Stated on any whole memrefs: the two input blocks and the idle result buffer come back as they were, the
  accumulator — taken at any contents — with the run's pieces written, which the run itself finds.
-/
import proofs.«153875_j13314398618441_1_alg».proof.Proof.BitsLaunch

set_option maxRecDepth 16384

noncomputable section

namespace Cert.Kernel.Region

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runOpen (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i)
    (x0 : Vec F S64x128 .f32) (x1 : Vec F S128x128x128 .f32) :
    Σ' (L2 : List (View.Piece (Elt F) S64x128 .f32)), { LS0 : List (View.Piece (Elt F) S64x128x128 .f32) //
      ∀ (xi2 : Vec F S64x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__sim_max_kernel i arg3 harg3 arg4 harg4 arg5 harg5 arg6 harg6) K } := by
  refine ⟨[], ?_, fun xi2 E K => ?run⟩
  case run =>
    simp only [cc0__sim_max_kernel_eq_skeleton]; unfold cc0__sim_max_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Region

end
-- ==== Proof.BitsRunMid.lean ====
/-
  The body on a MIDDLE point (slabs 1 to 4). It loads the v block and the T block and the accumulator, and stores
  accumulator + v·Tᵀ over all of the accumulator; nothing into the result window. The accumulator is taken at the
  contents the point before left.
-/
import proofs.«153875_j13314398618441_1_alg».proof.Proof.BitsRunOpen

set_option maxRecDepth 16384

noncomputable section

namespace Cert.Kernel.Region

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i)
    (x0 : Vec F S64x128 .f32) (x1 : Vec F S128x128x128 .f32) (xs0 : Vec F S64x128x128 .f32) :
    Σ' (L2 : List (View.Piece (Elt F) S64x128 .f32)), { LS0 : List (View.Piece (Elt F) S64x128x128 .f32) //
      ∀ (xi2 : Vec F S64x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__sim_max_kernel i arg3 harg3 arg4 harg4 arg5 harg5 arg6 harg6) K } := by
  refine ⟨[], ?_, fun xi2 E K => ?run⟩
  case run =>
    simp only [cc0__sim_max_kernel_eq_skeleton]; unfold cc0__sim_max_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.Kernel.Region

end
-- ==== Proof.BitsRunClose.lean ====
/-
  The body on a CLOSING point (slab 5). As on a middle point it stores accumulator + v·Tᵀ over the accumulator; then
  it loads the accumulator back, loads the result buffer (the value is never used) and stores over all of it the
  row maxima over the 128 tokens divided by the temperature. The result buffer is taken at any contents.
-/
import proofs.«153875_j13314398618441_1_alg».proof.Proof.BitsRunMid

set_option maxRecDepth 16384

noncomputable section

namespace Cert.Kernel.Region

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runClose (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i)
    (x0 : Vec F S64x128 .f32) (x1 : Vec F S128x128x128 .f32) (xs0 : Vec F S64x128x128 .f32) :
    Σ' (L2 : List (View.Piece (Elt F) S64x128 .f32)), { LS0 : List (View.Piece (Elt F) S64x128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__sim_max_kernel i arg3 harg3 arg4 harg4 arg5 harg5 arg6 harg6) K } := by
  refine ⟨?_, ?_, fun E K => ?run⟩
  case run =>
    simp only [cc0__sim_max_kernel_eq_skeleton]; unfold cc0__sim_max_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.Kernel.Region

end
-- ==== Proof.BitsFrame.lean ====
/-
  The frame of the similarity kernel's program. Each of the 48 grid points is an opening, a middle or a closing point of
  one of the eight accumulations (eight (i, j) output blocks, six slabs of d each). What the accumulator and the result
  buffer hold after a point is the run's pieces read back; by recursion on the point, a middle or closing point
  starting from what the point before left in the accumulator. The region invariant carries the accumulator at exactly
  those contents from one point to the next. With that proof data the body obligation holds at every point (by the
  three runs), and the launch — the region continued by the 81 later host lines — terminates with every array of the
  pipeline at what the proof data computes and every other buffer at what the later lines compute from them; v and T
  are inputs of the pipeline that no later line writes, so they end as they began.
-/
import proofs.«153875_j13314398618441_1_alg».proof.Proof.BitsRunClose

set_option maxRecDepth 16384

noncomputable section

namespace Cert.Kernel.Region

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- An opening point's pieces tile the accumulator (two whole-buffer stores). -/
theorem acc_cover_open (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i) (x0 : Vec F S64x128 .f32) (x1 : Vec F S128x128x128 .f32) (y : S64x128x128.Idx) :
    ∃ pc ∈ (runOpen c i arg3 harg3 arg4 harg4 arg5 harg5 arg6 harg6 hc0 hc1 x0 x1).2.1, y ∈ pc.1.set :=
  View.cover_of_tiledL (runOpen c i arg3 harg3 arg4 harg4 arg5 harg5 arg6 harg6 hc0 hc1 x0 x1).2.1 S64x128x128.size (by sl_kernel_rfl) y

/-- What an opening point leaves in the accumulator. -/
def accOpen (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i) (x0 : Vec F S64x128 .f32) (x1 : Vec F S128x128x128 .f32) : Vec F S64x128x128 .f32 :=
  accV.read (Elt F) (accV.writes (Elt F) accV.junk (runOpen c i arg3 harg3 arg4 harg4 arg5 harg5 arg6 harg6 hc0 hc1 x0 x1).2.1)

/-- It stores nothing into the result buffer: a placeholder nothing consults (the window is idle there). -/
def outOpen (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i) (x0 : Vec F S64x128 .f32) (x1 : Vec F S128x128x128 .f32) : Vec F S64x128 .f32 :=
  VO0_2.read (Elt F) (VO0_2.writes (Elt F) VO0_2.junk (runOpen c i arg3 harg3 arg4 harg4 arg5 harg5 arg6 harg6 hc0 hc1 x0 x1).1)

/-- A middle point's one store covers the accumulator. -/
theorem acc_cover_mid (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i) (x0 : Vec F S64x128 .f32) (x1 : Vec F S128x128x128 .f32) (xs0 : Vec F S64x128x128 .f32) (y : S64x128x128.Idx) :
    ∃ pc ∈ (runMid c i arg3 harg3 arg4 harg4 arg5 harg5 arg6 harg6 hc0 hc1 x0 x1 xs0).2.1, y ∈ pc.1.set :=
  View.cover_of_tiledL (runMid c i arg3 harg3 arg4 harg4 arg5 harg5 arg6 harg6 hc0 hc1 x0 x1 xs0).2.1 S64x128x128.size (by sl_kernel_rfl) y

/-- What a middle point leaves in the accumulator, over what the point before left (`xs0`). -/
def accMid (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i) (x0 : Vec F S64x128 .f32) (x1 : Vec F S128x128x128 .f32) (xs0 : Vec F S64x128x128 .f32) : Vec F S64x128x128 .f32 :=
  accV.read (Elt F) (accV.writes (Elt F) accV.junk (runMid c i arg3 harg3 arg4 harg4 arg5 harg5 arg6 harg6 hc0 hc1 x0 x1 xs0).2.1)

def outMid (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i) (x0 : Vec F S64x128 .f32) (x1 : Vec F S128x128x128 .f32) (xs0 : Vec F S64x128x128 .f32) : Vec F S64x128 .f32 :=
  VO0_2.read (Elt F) (VO0_2.writes (Elt F) VO0_2.junk (runMid c i arg3 harg3 arg4 harg4 arg5 harg5 arg6 harg6 hc0 hc1 x0 x1 xs0).1)

/-- A closing point's one store covers the accumulator, -/
theorem acc_cover_close (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) (y : S64x128x128.Idx) :
    ∃ pc ∈ (runClose c i arg3 harg3 arg4 harg4 arg5 harg5 arg6 harg6 hc0 hc1 x0 x1 xs0).2.1, y ∈ pc.1.set :=
  View.cover_of_tiledL (runClose c i arg3 harg3 arg4 harg4 arg5 harg5 arg6 harg6 hc0 hc1 x0 x1 xs0).2.1 S64x128x128.size (by sl_kernel_rfl) y

/-- and its one store into the result buffer covers that. -/
theorem out_cover_close (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) (y : S64x128.Idx) :
    ∃ pc ∈ (runClose c i arg3 harg3 arg4 harg4 arg5 harg5 arg6 harg6 hc0 hc1 x0 x1 xs0).1, y ∈ pc.1.set :=
  View.cover_of_tiledL (runClose c i arg3 harg3 arg4 harg4 arg5 harg5 arg6 harg6 hc0 hc1 x0 x1 xs0).1 S64x128.size (by sl_kernel_rfl) y

def accClose (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) : Vec F S64x128x128 .f32 :=
  accV.read (Elt F) (accV.writes (Elt F) accV.junk (runClose c i arg3 harg3 arg4 harg4 arg5 harg5 arg6 harg6 hc0 hc1 x0 x1 xs0).2.1)

/-- What a closing point leaves in the result buffer: the block of the similarity matrix it writes back. -/
def outClose (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) : Vec F S64x128 .f32 :=
  VO0_2.read (Elt F) (VO0_2.writes (Elt F) VO0_2.junk (runClose c i arg3 harg3 arg4 harg4 arg5 harg5 arg6 harg6 hc0 hc1 x0 x1 xs0).1)

/-! ## Point by point -/

/-- What the result buffer and the accumulator hold after the body at position `n`: by the kind of point `n` is, a
    middle or closing point over the accumulator the point before left. No point both opens and closes. -/
def heldAt (c : Dev nD) : (n : ℕ) → n < cfg0.N → Vec F S64x128 .f32 × Vec F S64x128x128 .f32
  | 0, hn => (outOpen c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((opens_iff ⟨0, hn⟩).mpr (Nat.zero_mod _)) (fun h => (fun h => by (try dsimp only at h); omega) ((closes_iff ⟨0, hn⟩).mp h)) (iblk m c 0 ⟨0, hn⟩) (iblk m c 1 ⟨0, hn⟩),
              accOpen c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((opens_iff ⟨0, hn⟩).mpr (Nat.zero_mod _)) (fun h => (fun h => by (try dsimp only at h); omega) ((closes_iff ⟨0, hn⟩).mp h)) (iblk m c 0 ⟨0, hn⟩) (iblk m c 1 ⟨0, hn⟩))
  | n + 1, hn =>
    if h0 : (n + 1) % 6 = 0 then
      if h1 : (n + 1) % 6 = 5 then
        False.elim (by omega)
      else
        (outOpen c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((opens_iff ⟨n + 1, hn⟩).mpr h0) (fun h => h1 ((closes_iff ⟨n + 1, hn⟩).mp h)) (iblk m c 0 ⟨n + 1, hn⟩) (iblk m c 1 ⟨n + 1, hn⟩),
         accOpen c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((opens_iff ⟨n + 1, hn⟩).mpr h0) (fun h => h1 ((closes_iff ⟨n + 1, hn⟩).mp h)) (iblk m c 0 ⟨n + 1, hn⟩) (iblk m c 1 ⟨n + 1, hn⟩))
    else
      if h1 : (n + 1) % 6 = 5 then
        (outClose c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((opens_iff ⟨n + 1, hn⟩).mp h)) ((closes_iff ⟨n + 1, hn⟩).mpr h1) (iblk m c 0 ⟨n + 1, hn⟩) (iblk m c 1 ⟨n + 1, hn⟩) (heldAt c n (Nat.lt_of_succ_lt hn)).2,
         accClose c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((opens_iff ⟨n + 1, hn⟩).mp h)) ((closes_iff ⟨n + 1, hn⟩).mpr h1) (iblk m c 0 ⟨n + 1, hn⟩) (iblk m c 1 ⟨n + 1, hn⟩) (heldAt c n (Nat.lt_of_succ_lt hn)).2)
      else
        (outMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((opens_iff ⟨n + 1, hn⟩).mp h)) (fun h => h1 ((closes_iff ⟨n + 1, hn⟩).mp h)) (iblk m c 0 ⟨n + 1, hn⟩) (iblk m c 1 ⟨n + 1, hn⟩) (heldAt c n (Nat.lt_of_succ_lt hn)).2,
         accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((opens_iff ⟨n + 1, hn⟩).mp h)) (fun h => h1 ((closes_iff ⟨n + 1, hn⟩).mp h)) (iblk m c 0 ⟨n + 1, hn⟩) (iblk m c 1 ⟨n + 1, hn⟩) (heldAt c n (Nat.lt_of_succ_lt hn)).2)

/-- `heldAt` at an opening point. -/
theorem heldAt_open (c : Dev nD) (t : Fin cfg0.N) (h0 : t.val % 6 = 0) (h1 : ¬t.val % 6 = 5) :
    heldAt m c t.val t.isLt = (outOpen c (grid0.coords t) (ms0_0 t) (hs0_0 t) (ms0_1 t) (hs0_1 t) (ms0_2 t) (hs0_2 t) accM (Memref.isWhole_whole _) ((opens_iff t).mpr h0) (fun h => h1 ((closes_iff t).mp h)) (iblk m c 0 t) (iblk m c 1 t),
      accOpen c (grid0.coords t) (ms0_0 t) (hs0_0 t) (ms0_1 t) (hs0_1 t) (ms0_2 t) (hs0_2 t) accM (Memref.isWhole_whole _) ((opens_iff t).mpr h0) (fun h => h1 ((closes_iff t).mp h)) (iblk m c 0 t) (iblk m c 1 t)) := by
  obtain ⟨n, hn⟩ := t
  cases n with
  | zero => exact rfl
  | succ n => exact (dif_pos h0).trans ((dif_neg h1).trans rfl)

/-- `heldAt` at a middle point: over what the point before left. -/
theorem heldAt_mid (c : Dev nD) (t : Fin cfg0.N) (h0 : ¬t.val % 6 = 0) (h1 : ¬t.val % 6 = 5) :
    heldAt m c t.val t.isLt = (outMid c (grid0.coords t) (ms0_0 t) (hs0_0 t) (ms0_1 t) (hs0_1 t) (ms0_2 t) (hs0_2 t) accM (Memref.isWhole_whole _) (fun h => h0 ((opens_iff t).mp h)) (fun h => h1 ((closes_iff t).mp h)) (iblk m c 0 t) (iblk m c 1 t) (heldAt m c (t.val - 1) (Nat.lt_of_le_of_lt (Nat.sub_le _ _) t.isLt)).2,
      accMid c (grid0.coords t) (ms0_0 t) (hs0_0 t) (ms0_1 t) (hs0_1 t) (ms0_2 t) (hs0_2 t) accM (Memref.isWhole_whole _) (fun h => h0 ((opens_iff t).mp h)) (fun h => h1 ((closes_iff t).mp h)) (iblk m c 0 t) (iblk m c 1 t) (heldAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `heldAt` at a closing point: over what the point before left. -/
theorem heldAt_close (c : Dev nD) (t : Fin cfg0.N) (h0 : ¬t.val % 6 = 0) (h1 : t.val % 6 = 5) :
    heldAt m c t.val t.isLt = (outClose c (grid0.coords t) (ms0_0 t) (hs0_0 t) (ms0_1 t) (hs0_1 t) (ms0_2 t) (hs0_2 t) accM (Memref.isWhole_whole _) (fun h => h0 ((opens_iff t).mp h)) ((closes_iff t).mpr h1) (iblk m c 0 t) (iblk m c 1 t) (heldAt m c (t.val - 1) (Nat.lt_of_le_of_lt (Nat.sub_le _ _) t.isLt)).2,
      accClose c (grid0.coords t) (ms0_0 t) (hs0_0 t) (ms0_1 t) (hs0_1 t) (ms0_2 t) (hs0_2 t) accM (Memref.isWhole_whole _) (fun h => h0 ((opens_iff t).mp h)) ((closes_iff t).mpr h1) (iblk m c 0 t) (iblk m c 1 t) (heldAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left, and the generator register at some state. -/
def carried (c : Dev nD) : (n : ℕ) → n ≤ cfg0.N → sProp 𝕄
  | 0, _ => Pipeline.ΦA spec0 c
  | n + 1, hn => iprop(iprop(owns (c : Thread nD τ) accM fullShare ((heldAt m c n hn).2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accM fullShare ((heldAt m c n hn).2)) ∗ (∃ r, prngReg c r)) := rfl

theorem carried_pos (c : Dev nD) (n : ℕ) (h : n ≤ cfg0.N) (hz : n ≠ 0) :
    carried m c n h = iprop(iprop(owns (c : Thread nD τ) accM fullShare ((heldAt m c (n - 1) (by omega)).2)) ∗ (∃ r, prngReg c r)) := by
  cases n with
  | zero => exact absurd rfl hz
  | succ n => rfl

/-! ## The proof data -/

/-- The arrays as the region finds them; after the body each input buffer at its block and the result buffer at
    `heldAt`'s first component; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).1
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (heldAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which kind of point it is; the
    invariant hands the body the accumulator at what the point before left (at anything before the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = carried m c (t.val + 1) t.isLt from rfl, carried_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 6 = 0
  · by_cases h1 : t.val % 6 = 5
    · exfalso; omega
    · rw [Dat.leavesExact_idle (dats m 0 c) 2 t (idleAt0_2 t (fun h => h1 ((closes_iff t).mp h))) (noFlush0_2 t (fun h => h1 ((closes_iff t).mp h)))]
      rw [heldAt_open m c t h0 h1]
      unfold accOpen; (try dsimp only)
      by_cases hz : t.val = 0
      · rw [carried_castSucc m c t, carried_zero m c _ _ hz, PhiA0_eq]
        iintro ⟨⟨HS0, Hg⟩, Ho, ⟨%d0, H0⟩, ⟨%d1, H1⟩, ⟨%d2, H2⟩⟩
        iapply ((runOpen c (grid0.coords t) _ _ _ _ _ _ _ _ ((opens_iff t).mpr h0) (fun h => h1 ((closes_iff t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (acc_cover_open c _ _ _ _ _ _ _ _ _ _ _ _ _)
          iexact Hg
        isplitl [Ho]; · iexact Ho
        isplitl [H0]; · iexact H0
        isplitl [H1]; · iexact H1
        iexists _; iexact H2
      · rw [carried_castSucc m c t, carried_pos m c _ _ hz]
        iintro ⟨⟨HS0, Hg⟩, Ho, ⟨%d0, H0⟩, ⟨%d1, H1⟩, ⟨%d2, H2⟩⟩
        iapply ((runOpen c (grid0.coords t) _ _ _ _ _ _ _ _ ((opens_iff t).mpr h0) (fun h => h1 ((closes_iff t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (acc_cover_open c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 6 = 5
    · rw [show (dats m 0 c).leavesExact 2 t = owns (c : Thread nD τ) (ms0_2 t) fullShare ((dats m 0 c).after 2 t) from by
        unfold Dat.leavesExact; rw [liveAt0_2 t ((closes_iff t).mpr h1)], after0_2]
      rw [heldAt_close m c t h0 h1]
      unfold outClose accClose; (try dsimp only)
      rw [carried_castSucc m c t, carried_pos m c _ _ hz]
      iintro ⟨⟨HS0, Hg⟩, Ho, ⟨%d0, H0⟩, ⟨%d1, H1⟩, ⟨%d2, H2⟩⟩
      iapply ((runClose c (grid0.coords t) _ _ _ _ _ _ _ _ (fun h => h0 ((opens_iff t).mp h)) ((closes_iff t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (acc_cover_close c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (out_cover_close c _ _ _ _ _ _ _ _ _ _ _ _ _ _)
    · rw [Dat.leavesExact_idle (dats m 0 c) 2 t (idleAt0_2 t (fun h => h1 ((closes_iff t).mp h))) (noFlush0_2 t (fun h => h1 ((closes_iff t).mp h)))]
      rw [heldAt_mid m c t h0 h1]
      unfold accMid; (try dsimp only)
      rw [carried_castSucc m c t, carried_pos m c _ _ hz]
      iintro ⟨⟨HS0, Hg⟩, Ho, ⟨%d0, H0⟩, ⟨%d1, H1⟩, ⟨%d2, H2⟩⟩
      iapply ((runMid c (grid0.coords t) _ _ _ _ _ _ _ _ (fun h => h0 ((opens_iff t).mp h)) (fun h => h1 ((closes_iff t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (acc_cover_mid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After any point the invariant gives the launch's back: the accumulator's contents are forgotten. -/
theorem carried_out (c : Dev nD) (t : Fin (cfg0.N + 1)) (ht : t.val ≠ 0) : (dats m 0 c).Φ t ⊢ Pipeline.ΦA spec0 c := by
  rw [show (dats m 0 c).Φ t = carried m c t.val (Nat.le_of_lt_succ t.isLt) from rfl, carried_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  carried_out m c _ (by rw [Fin.val_last]; have : cfg0.N = 48 := N_0; omega)

/-! ## The run and the frame -/

set_option backward.isDefEq.respectTransparency.types false in
set_option maxHeartbeats 4000000 in
/-- Every weakly fair execution of @main terminates, with every array of the pipeline at what the proof data computes
    and every other unscoped buffer as the later lines leave it. -/
theorem run_main : θ_run defs (onTc (τ := τ) (main (F := F))) (s₀ m ρ) (Pipeline.FramePost cfgs (dats m) 0 (Pipeline.afterTail₀ cfgs (dats m) 0 (V0 m) lossOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := lossOps) (hsub := loss_sub) (hfresh := loss_fresh) (hkeep := loss_keeps)
    (hmain := hmain m Variants.none) (hA := A_eq m) (hin := hin m) (hout := hout m)

/-- The frame claim at any `F`: @main runs to the end and v and T end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Region

end
-- ==== Proof.IdealLaunch.lean ====
/-
  The similarity kernel's program around its one pallas_call. @main is the call — a 4 x 2 x 6 grid whose last axis
  walks the six 128-wide slabs of the contracted axis d — followed by 81 host operations: the iota of the targets, a
  log-softmax of the 256 x 256 similarity matrix, its transpose, a log-softmax of that, and for each the gather of the
  diagonal, its sum, the division by 256, the negation; their sum halved is the loss. None of those later lines
  writes an argument or the similarity matrix, none allocates, and each touches unscoped TensorCore buffers only:
  that is all the launch asks of them. Here also: a window's block at a grid point as read off the array the region
  finds; which grid points open an accumulation (slab 0) and which close one (slab 5), in closed form over the 48
  points; and that the result window is idle and not written back except where an accumulation closes.
-/
import proofs.«153875_j13314398618441_1_alg».proof.Proof.Gen.KernelIdeal.Launch
import proofs.«153875_j13314398618441_1_alg».proof.Proof.Gen.KernelIdeal.Skeleton
import proofs.«153875_j13314398618441_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The five stretches of host operations after the call, in program order. -/
abbrev lossOps : List (List (HloOp τ sig (Elt F))) := [hostOps1, hostOps1_1, hostOps1_2, hostOps1_3, hostOps1_4]

/-- The TensorCore buffers as the region finds them: the launch contents (no host operation runs before the call). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

set_option maxHeartbeats 4000000 in
/-- @main is the call continued by the later lines, holding the buffers at the launch contents. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((lossOps (F := F)).map StableHlo.seq)) :=
  Pipeline.hmain_around cfgs 0 defs₀ 𝒱₀ m main [] lossOps (by simp only [List.Forall])
    (by simp only [List.Forall]) main_chain

/-- Every later line touches only unscoped TensorCore buffers; nothing is prefetched, so each is an array of the
    pipeline or a buffer that bypasses the region. -/
theorem loss_sub : ∀ ops ∈ (lossOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None allocates. -/
theorem loss_fresh : ∀ ops ∈ (lossOps : List (List (HloOp τ sig (Elt F)))), ∀ op ∈ ops, op.fresh = ∅ := by
  intro ops hops op hop
  simp only [List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

set_option maxHeartbeats 1600000 in
/-- None writes v, T or the similarity matrix: each writes its own result buffer, a different one. -/
theorem loss_keeps : ∀ ops ∈ (lossOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 64 x 128 block of v is in its staging buffer at every point, for any proof data over the region-entry arrays
    whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the 128 x 128 x 128 block of T. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two arguments end as they began -/

/-- From a run to the launch's post: v and T are staged inputs, so each ends at its region-entry contents, which are
    the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) lossOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c)))⟩) h

/-! ## Where an accumulation opens and where it closes -/

/-- The body's first branch: the point is on slab 0 of the contracted axis. -/
abbrev opens (i : grid0.Coords) : Prop := (Scalar.cmpi .ne (Scalar.extui (Scalar.cmpi .eq (BitVec.ofNat 32 (i 2).val) 0#32)) 0#32) = 1#1
/-- The grid's last axis is the fastest, so those are the points ≡ 0 (mod 6). -/
theorem opens_iff : ∀ t : Fin cfg0.N, opens (grid0.coords t) ↔ t.val % 6 = 0 :=
  (by decide +kernel : ∀ t : Fin grid0.N, opens (grid0.coords t) ↔ t.val % 6 = 0)

/-- The body's second branch: the point is on slab 5, the last. -/
abbrev closes (i : grid0.Coords) : Prop := k0_cond2 i = 1#1
/-- Those are the points ≡ 5 (mod 6). -/
theorem closes_iff : ∀ t : Fin cfg0.N, closes (grid0.coords t) ↔ t.val % 6 = 5 :=
  (by decide +kernel : ∀ t : Fin grid0.N, closes (grid0.coords t) ↔ t.val % 6 = 5)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off the closing points the body stores nothing into the result window, -/
theorem idleAt0_2 : ∀ t : Fin cfg0.N, ¬closes (grid0.coords t) → cfg0.idle 2 (grid0.coords t) = true := by decide +kernel
/-- and the pipeline does not write its block back there. -/
theorem noFlush0_2 : ∀ t : Fin cfg0.N, ¬closes (grid0.coords t) → (cfg0.win 2).flush t = false := by decide +kernel
/-- On them it does store. -/
theorem liveAt0_2 : ∀ t : Fin cfg0.N, closes (grid0.coords t) → cfg0.idle 2 (grid0.coords t) = false := by decide +kernel

/-! ## The body's memrefs -/

/-- One staging buffer of the result window, through which its contents are stated. -/
abbrev VO0_2 : View sig .tc .vmem S64x128 .f32 := (Memref.whole cc0_stg2_0 : Memref sig .tc .vmem S64x128 .f32).view
/-- Each window's current staging memref at point `t`, as the pipeline passes it, and its wholeness. -/
abbrev ms0_0 (t : Fin cfg0.N) : Memref sig .tc .vmem S64x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
/-- The 64 x 128 x 128 accumulator, a scoped buffer of the kernel's own passed beside the windows. -/
abbrev accM : Memref sig .tc .vmem S64x128x128 .f32 := Memref.whole cc0_scratch0
/-- The accumulator as a view: what it holds is stated through it. -/
abbrev accV : View sig .tc .vmem S64x128x128 .f32 := accM.view

/-- The launch's invariant with the accumulator as a memref owned at some contents. -/
theorem PhiA0_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Region

end
-- ==== Proof.IdealRunOpen.lean ====
/-
  The body on an OPENING point (slab 0 of the contracted axis, not the last slab). It loads the accumulator (the
  value is never used), stores zeros over all of it, loads the v block and the T block, loads the accumulator back
  (the zeros just stored), and stores zeros + v·Tᵀ over all of it; it stores nothing into the result window.
  Stated on any whole memrefs: the two input blocks and the idle result buffer come back as they were, the
  accumulator — taken at any contents — with the run's pieces written, which the run itself finds.
-/
import proofs.«153875_j13314398618441_1_alg».proof.Proof.IdealLaunch

set_option maxRecDepth 16384

noncomputable section

namespace Cert.KernelIdeal.Region

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runOpen (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i)
    (x0 : Vec F S64x128 .f32) (x1 : Vec F S128x128x128 .f32) :
    Σ' (L2 : List (View.Piece (Elt F) S64x128 .f32)), { LS0 : List (View.Piece (Elt F) S64x128x128 .f32) //
      ∀ (xi2 : Vec F S64x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__sim_max_kernel i arg3 harg3 arg4 harg4 arg5 harg5 arg6 harg6) K } := by
  refine ⟨[], ?_, fun xi2 E K => ?run⟩
  case run =>
    simp only [cc0__sim_max_kernel_eq_skeleton]; unfold cc0__sim_max_kernel_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Region

end
-- ==== Proof.IdealRunMid.lean ====
/-
  The body on a MIDDLE point (slabs 1 to 4). It loads the v block and the T block and the accumulator, and stores
  accumulator + v·Tᵀ over all of the accumulator; nothing into the result window. The accumulator is taken at the
  contents the point before left.
-/
import proofs.«153875_j13314398618441_1_alg».proof.Proof.IdealRunOpen

set_option maxRecDepth 16384

noncomputable section

namespace Cert.KernelIdeal.Region

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i)
    (x0 : Vec F S64x128 .f32) (x1 : Vec F S128x128x128 .f32) (xs0 : Vec F S64x128x128 .f32) :
    Σ' (L2 : List (View.Piece (Elt F) S64x128 .f32)), { LS0 : List (View.Piece (Elt F) S64x128x128 .f32) //
      ∀ (xi2 : Vec F S64x128 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__sim_max_kernel i arg3 harg3 arg4 harg4 arg5 harg5 arg6 harg6) K } := by
  refine ⟨[], ?_, fun xi2 E K => ?run⟩
  case run =>
    simp only [cc0__sim_max_kernel_eq_skeleton]; unfold cc0__sim_max_kernel_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

end Cert.KernelIdeal.Region

end
-- ==== Proof.IdealRunClose.lean ====
/-
  The body on a CLOSING point (slab 5). As on a middle point it stores accumulator + v·Tᵀ over the accumulator; then
  it loads the accumulator back, loads the result buffer (the value is never used) and stores over all of it the
  row maxima over the 128 tokens divided by the temperature. The result buffer is taken at any contents.
-/
import proofs.«153875_j13314398618441_1_alg».proof.Proof.IdealRunMid

set_option maxRecDepth 16384

noncomputable section

namespace Cert.KernelIdeal.Region

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runClose (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i)
    (x0 : Vec F S64x128 .f32) (x1 : Vec F S128x128x128 .f32) (xs0 : Vec F S64x128x128 .f32) :
    Σ' (L2 : List (View.Piece (Elt F) S64x128 .f32)), { LS0 : List (View.Piece (Elt F) S64x128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__sim_max_kernel i arg3 harg3 arg4 harg4 arg5 harg5 arg6 harg6) K } := by
  refine ⟨?_, ?_, fun E K => ?run⟩
  case run =>
    simp only [cc0__sim_max_kernel_eq_skeleton]; unfold cc0__sim_max_kernel_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

end Cert.KernelIdeal.Region

end
-- ==== Proof.IdealFrame.lean ====
/-
  The frame of the similarity kernel's program. Each of the 48 grid points is an opening, a middle or a closing point of
  one of the eight accumulations (eight (i, j) output blocks, six slabs of d each). What the accumulator and the result
  buffer hold after a point is the run's pieces read back; by recursion on the point, a middle or closing point
  starting from what the point before left in the accumulator. The region invariant carries the accumulator at exactly
  those contents from one point to the next. With that proof data the body obligation holds at every point (by the
  three runs), and the launch — the region continued by the 81 later host lines — terminates with every array of the
  pipeline at what the proof data computes and every other buffer at what the later lines compute from them; v and T
  are inputs of the pipeline that no later line writes, so they end as they began.
-/
import proofs.«153875_j13314398618441_1_alg».proof.Proof.IdealRunClose

set_option maxRecDepth 16384

noncomputable section

namespace Cert.KernelIdeal.Region

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- An opening point's pieces tile the accumulator (two whole-buffer stores). -/
theorem acc_cover_open (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i) (x0 : Vec F S64x128 .f32) (x1 : Vec F S128x128x128 .f32) (y : S64x128x128.Idx) :
    ∃ pc ∈ (runOpen c i arg3 harg3 arg4 harg4 arg5 harg5 arg6 harg6 hc0 hc1 x0 x1).2.1, y ∈ pc.1.set :=
  View.cover_of_tiledL (runOpen c i arg3 harg3 arg4 harg4 arg5 harg5 arg6 harg6 hc0 hc1 x0 x1).2.1 S64x128x128.size (by sl_kernel_rfl) y

/-- What an opening point leaves in the accumulator. -/
def accOpen (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i) (x0 : Vec F S64x128 .f32) (x1 : Vec F S128x128x128 .f32) : Vec F S64x128x128 .f32 :=
  accV.read (Elt F) (accV.writes (Elt F) accV.junk (runOpen c i arg3 harg3 arg4 harg4 arg5 harg5 arg6 harg6 hc0 hc1 x0 x1).2.1)

/-- It stores nothing into the result buffer: a placeholder nothing consults (the window is idle there). -/
def outOpen (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i) (x0 : Vec F S64x128 .f32) (x1 : Vec F S128x128x128 .f32) : Vec F S64x128 .f32 :=
  VO0_2.read (Elt F) (VO0_2.writes (Elt F) VO0_2.junk (runOpen c i arg3 harg3 arg4 harg4 arg5 harg5 arg6 harg6 hc0 hc1 x0 x1).1)

/-- A middle point's one store covers the accumulator. -/
theorem acc_cover_mid (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i) (x0 : Vec F S64x128 .f32) (x1 : Vec F S128x128x128 .f32) (xs0 : Vec F S64x128x128 .f32) (y : S64x128x128.Idx) :
    ∃ pc ∈ (runMid c i arg3 harg3 arg4 harg4 arg5 harg5 arg6 harg6 hc0 hc1 x0 x1 xs0).2.1, y ∈ pc.1.set :=
  View.cover_of_tiledL (runMid c i arg3 harg3 arg4 harg4 arg5 harg5 arg6 harg6 hc0 hc1 x0 x1 xs0).2.1 S64x128x128.size (by sl_kernel_rfl) y

/-- What a middle point leaves in the accumulator, over what the point before left (`xs0`). -/
def accMid (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i) (x0 : Vec F S64x128 .f32) (x1 : Vec F S128x128x128 .f32) (xs0 : Vec F S64x128x128 .f32) : Vec F S64x128x128 .f32 :=
  accV.read (Elt F) (accV.writes (Elt F) accV.junk (runMid c i arg3 harg3 arg4 harg4 arg5 harg5 arg6 harg6 hc0 hc1 x0 x1 xs0).2.1)

def outMid (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i) (x0 : Vec F S64x128 .f32) (x1 : Vec F S128x128x128 .f32) (xs0 : Vec F S64x128x128 .f32) : Vec F S64x128 .f32 :=
  VO0_2.read (Elt F) (VO0_2.writes (Elt F) VO0_2.junk (runMid c i arg3 harg3 arg4 harg4 arg5 harg5 arg6 harg6 hc0 hc1 x0 x1 xs0).1)

/-- A closing point's one store covers the accumulator, -/
theorem acc_cover_close (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) (y : S64x128x128.Idx) :
    ∃ pc ∈ (runClose c i arg3 harg3 arg4 harg4 arg5 harg5 arg6 harg6 hc0 hc1 x0 x1 xs0).2.1, y ∈ pc.1.set :=
  View.cover_of_tiledL (runClose c i arg3 harg3 arg4 harg4 arg5 harg5 arg6 harg6 hc0 hc1 x0 x1 xs0).2.1 S64x128x128.size (by sl_kernel_rfl) y

/-- and its one store into the result buffer covers that. -/
theorem out_cover_close (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) (y : S64x128.Idx) :
    ∃ pc ∈ (runClose c i arg3 harg3 arg4 harg4 arg5 harg5 arg6 harg6 hc0 hc1 x0 x1 xs0).1, y ∈ pc.1.set :=
  View.cover_of_tiledL (runClose c i arg3 harg3 arg4 harg4 arg5 harg5 arg6 harg6 hc0 hc1 x0 x1 xs0).1 S64x128.size (by sl_kernel_rfl) y

def accClose (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) : Vec F S64x128x128 .f32 :=
  accV.read (Elt F) (accV.writes (Elt F) accV.junk (runClose c i arg3 harg3 arg4 harg4 arg5 harg5 arg6 harg6 hc0 hc1 x0 x1 xs0).2.1)

/-- What a closing point leaves in the result buffer: the block of the similarity matrix it writes back. -/
def outClose (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) : Vec F S64x128 .f32 :=
  VO0_2.read (Elt F) (VO0_2.writes (Elt F) VO0_2.junk (runClose c i arg3 harg3 arg4 harg4 arg5 harg5 arg6 harg6 hc0 hc1 x0 x1 xs0).1)

/-! ## Point by point -/

/-- What the result buffer and the accumulator hold after the body at position `n`: by the kind of point `n` is, a
    middle or closing point over the accumulator the point before left. No point both opens and closes. -/
def heldAt (c : Dev nD) : (n : ℕ) → n < cfg0.N → Vec F S64x128 .f32 × Vec F S64x128x128 .f32
  | 0, hn => (outOpen c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((opens_iff ⟨0, hn⟩).mpr (Nat.zero_mod _)) (fun h => (fun h => by (try dsimp only at h); omega) ((closes_iff ⟨0, hn⟩).mp h)) (iblk m c 0 ⟨0, hn⟩) (iblk m c 1 ⟨0, hn⟩),
              accOpen c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) accM (Memref.isWhole_whole _) ((opens_iff ⟨0, hn⟩).mpr (Nat.zero_mod _)) (fun h => (fun h => by (try dsimp only at h); omega) ((closes_iff ⟨0, hn⟩).mp h)) (iblk m c 0 ⟨0, hn⟩) (iblk m c 1 ⟨0, hn⟩))
  | n + 1, hn =>
    if h0 : (n + 1) % 6 = 0 then
      if h1 : (n + 1) % 6 = 5 then
        False.elim (by omega)
      else
        (outOpen c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((opens_iff ⟨n + 1, hn⟩).mpr h0) (fun h => h1 ((closes_iff ⟨n + 1, hn⟩).mp h)) (iblk m c 0 ⟨n + 1, hn⟩) (iblk m c 1 ⟨n + 1, hn⟩),
         accOpen c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) ((opens_iff ⟨n + 1, hn⟩).mpr h0) (fun h => h1 ((closes_iff ⟨n + 1, hn⟩).mp h)) (iblk m c 0 ⟨n + 1, hn⟩) (iblk m c 1 ⟨n + 1, hn⟩))
    else
      if h1 : (n + 1) % 6 = 5 then
        (outClose c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((opens_iff ⟨n + 1, hn⟩).mp h)) ((closes_iff ⟨n + 1, hn⟩).mpr h1) (iblk m c 0 ⟨n + 1, hn⟩) (iblk m c 1 ⟨n + 1, hn⟩) (heldAt c n (Nat.lt_of_succ_lt hn)).2,
         accClose c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((opens_iff ⟨n + 1, hn⟩).mp h)) ((closes_iff ⟨n + 1, hn⟩).mpr h1) (iblk m c 0 ⟨n + 1, hn⟩) (iblk m c 1 ⟨n + 1, hn⟩) (heldAt c n (Nat.lt_of_succ_lt hn)).2)
      else
        (outMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((opens_iff ⟨n + 1, hn⟩).mp h)) (fun h => h1 ((closes_iff ⟨n + 1, hn⟩).mp h)) (iblk m c 0 ⟨n + 1, hn⟩) (iblk m c 1 ⟨n + 1, hn⟩) (heldAt c n (Nat.lt_of_succ_lt hn)).2,
         accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) accM (Memref.isWhole_whole _) (fun h => h0 ((opens_iff ⟨n + 1, hn⟩).mp h)) (fun h => h1 ((closes_iff ⟨n + 1, hn⟩).mp h)) (iblk m c 0 ⟨n + 1, hn⟩) (iblk m c 1 ⟨n + 1, hn⟩) (heldAt c n (Nat.lt_of_succ_lt hn)).2)

/-- `heldAt` at an opening point. -/
theorem heldAt_open (c : Dev nD) (t : Fin cfg0.N) (h0 : t.val % 6 = 0) (h1 : ¬t.val % 6 = 5) :
    heldAt m c t.val t.isLt = (outOpen c (grid0.coords t) (ms0_0 t) (hs0_0 t) (ms0_1 t) (hs0_1 t) (ms0_2 t) (hs0_2 t) accM (Memref.isWhole_whole _) ((opens_iff t).mpr h0) (fun h => h1 ((closes_iff t).mp h)) (iblk m c 0 t) (iblk m c 1 t),
      accOpen c (grid0.coords t) (ms0_0 t) (hs0_0 t) (ms0_1 t) (hs0_1 t) (ms0_2 t) (hs0_2 t) accM (Memref.isWhole_whole _) ((opens_iff t).mpr h0) (fun h => h1 ((closes_iff t).mp h)) (iblk m c 0 t) (iblk m c 1 t)) := by
  obtain ⟨n, hn⟩ := t
  cases n with
  | zero => exact rfl
  | succ n => exact (dif_pos h0).trans ((dif_neg h1).trans rfl)

/-- `heldAt` at a middle point: over what the point before left. -/
theorem heldAt_mid (c : Dev nD) (t : Fin cfg0.N) (h0 : ¬t.val % 6 = 0) (h1 : ¬t.val % 6 = 5) :
    heldAt m c t.val t.isLt = (outMid c (grid0.coords t) (ms0_0 t) (hs0_0 t) (ms0_1 t) (hs0_1 t) (ms0_2 t) (hs0_2 t) accM (Memref.isWhole_whole _) (fun h => h0 ((opens_iff t).mp h)) (fun h => h1 ((closes_iff t).mp h)) (iblk m c 0 t) (iblk m c 1 t) (heldAt m c (t.val - 1) (Nat.lt_of_le_of_lt (Nat.sub_le _ _) t.isLt)).2,
      accMid c (grid0.coords t) (ms0_0 t) (hs0_0 t) (ms0_1 t) (hs0_1 t) (ms0_2 t) (hs0_2 t) accM (Memref.isWhole_whole _) (fun h => h0 ((opens_iff t).mp h)) (fun h => h1 ((closes_iff t).mp h)) (iblk m c 0 t) (iblk m c 1 t) (heldAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `heldAt` at a closing point: over what the point before left. -/
theorem heldAt_close (c : Dev nD) (t : Fin cfg0.N) (h0 : ¬t.val % 6 = 0) (h1 : t.val % 6 = 5) :
    heldAt m c t.val t.isLt = (outClose c (grid0.coords t) (ms0_0 t) (hs0_0 t) (ms0_1 t) (hs0_1 t) (ms0_2 t) (hs0_2 t) accM (Memref.isWhole_whole _) (fun h => h0 ((opens_iff t).mp h)) ((closes_iff t).mpr h1) (iblk m c 0 t) (iblk m c 1 t) (heldAt m c (t.val - 1) (Nat.lt_of_le_of_lt (Nat.sub_le _ _) t.isLt)).2,
      accClose c (grid0.coords t) (ms0_0 t) (hs0_0 t) (ms0_1 t) (hs0_1 t) (ms0_2 t) (hs0_2 t) accM (Memref.isWhole_whole _) (fun h => h0 ((opens_iff t).mp h)) ((closes_iff t).mpr h1) (iblk m c 0 t) (iblk m c 1 t) (heldAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (the accumulator at anything);
    afterwards the accumulator at what the point before left, and the generator register at some state. -/
def carried (c : Dev nD) : (n : ℕ) → n ≤ cfg0.N → sProp 𝕄
  | 0, _ => Pipeline.ΦA spec0 c
  | n + 1, hn => iprop(iprop(owns (c : Thread nD τ) accM fullShare ((heldAt m c n hn).2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) accM fullShare ((heldAt m c n hn).2)) ∗ (∃ r, prngReg c r)) := rfl

theorem carried_pos (c : Dev nD) (n : ℕ) (h : n ≤ cfg0.N) (hz : n ≠ 0) :
    carried m c n h = iprop(iprop(owns (c : Thread nD τ) accM fullShare ((heldAt m c (n - 1) (by omega)).2)) ∗ (∃ r, prngReg c r)) := by
  cases n with
  | zero => exact absurd rfl hz
  | succ n => rfl

/-! ## The proof data -/

/-- The arrays as the region finds them; after the body each input buffer at its block and the result buffer at
    `heldAt`'s first component; the invariant `carried`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (heldAt m c t.val t.isLt).1
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (heldAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which kind of point it is; the
    invariant hands the body the accumulator at what the point before left (at anything before the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = carried m c (t.val + 1) t.isLt from rfl, carried_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 6 = 0
  · by_cases h1 : t.val % 6 = 5
    · exfalso; omega
    · rw [Dat.leavesExact_idle (dats m 0 c) 2 t (idleAt0_2 t (fun h => h1 ((closes_iff t).mp h))) (noFlush0_2 t (fun h => h1 ((closes_iff t).mp h)))]
      rw [heldAt_open m c t h0 h1]
      unfold accOpen; (try dsimp only)
      by_cases hz : t.val = 0
      · rw [carried_castSucc m c t, carried_zero m c _ _ hz, PhiA0_eq]
        iintro ⟨⟨HS0, Hg⟩, Ho, ⟨%d0, H0⟩, ⟨%d1, H1⟩, ⟨%d2, H2⟩⟩
        iapply ((runOpen c (grid0.coords t) _ _ _ _ _ _ _ _ ((opens_iff t).mpr h0) (fun h => h1 ((closes_iff t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (acc_cover_open c _ _ _ _ _ _ _ _ _ _ _ _ _)
          iexact Hg
        isplitl [Ho]; · iexact Ho
        isplitl [H0]; · iexact H0
        isplitl [H1]; · iexact H1
        iexists _; iexact H2
      · rw [carried_castSucc m c t, carried_pos m c _ _ hz]
        iintro ⟨⟨HS0, Hg⟩, Ho, ⟨%d0, H0⟩, ⟨%d1, H1⟩, ⟨%d2, H2⟩⟩
        iapply ((runOpen c (grid0.coords t) _ _ _ _ _ _ _ _ ((opens_iff t).mpr h0) (fun h => h1 ((closes_iff t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (acc_cover_open c _ _ _ _ _ _ _ _ _ _ _ _ _)
          iexact Hg
        isplitl [Ho]; · iexact Ho
        isplitl [H0]; · iexact H0
        isplitl [H1]; · iexact H1
        iexists _; iexact H2
  · have hz : t.val ≠ 0 := fun e => h0 (by rw [e])
    by_cases h1 : t.val % 6 = 5
    · rw [show (dats m 0 c).leavesExact 2 t = owns (c : Thread nD τ) (ms0_2 t) fullShare ((dats m 0 c).after 2 t) from by
        unfold Dat.leavesExact; rw [liveAt0_2 t ((closes_iff t).mpr h1)], after0_2]
      rw [heldAt_close m c t h0 h1]
      unfold outClose accClose; (try dsimp only)
      rw [carried_castSucc m c t, carried_pos m c _ _ hz]
      iintro ⟨⟨HS0, Hg⟩, Ho, ⟨%d0, H0⟩, ⟨%d1, H1⟩, ⟨%d2, H2⟩⟩
      iapply ((runClose c (grid0.coords t) _ _ _ _ _ _ _ _ (fun h => h0 ((opens_iff t).mp h)) ((closes_iff t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (acc_cover_close c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (out_cover_close c _ _ _ _ _ _ _ _ _ _ _ _ _ _)
    · rw [Dat.leavesExact_idle (dats m 0 c) 2 t (idleAt0_2 t (fun h => h1 ((closes_iff t).mp h))) (noFlush0_2 t (fun h => h1 ((closes_iff t).mp h)))]
      rw [heldAt_mid m c t h0 h1]
      unfold accMid; (try dsimp only)
      rw [carried_castSucc m c t, carried_pos m c _ _ hz]
      iintro ⟨⟨HS0, Hg⟩, Ho, ⟨%d0, H0⟩, ⟨%d1, H1⟩, ⟨%d2, H2⟩⟩
      iapply ((runMid c (grid0.coords t) _ _ _ _ _ _ _ _ (fun h => h0 ((opens_iff t).mp h)) (fun h => h1 ((closes_iff t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (acc_cover_mid c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After any point the invariant gives the launch's back: the accumulator's contents are forgotten. -/
theorem carried_out (c : Dev nD) (t : Fin (cfg0.N + 1)) (ht : t.val ≠ 0) : (dats m 0 c).Φ t ⊢ Pipeline.ΦA spec0 c := by
  rw [show (dats m 0 c).Φ t = carried m c t.val (Nat.le_of_lt_succ t.isLt) from rfl, carried_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  carried_out m c _ (by rw [Fin.val_last]; have : cfg0.N = 48 := N_0; omega)

/-! ## The run and the frame -/

set_option backward.isDefEq.respectTransparency.types false in
set_option maxHeartbeats 4000000 in
/-- Every weakly fair execution of @main terminates, with every array of the pipeline at what the proof data computes
    and every other unscoped buffer as the later lines leave it. -/
theorem run_main : θ_run defs (onTc (τ := τ) (main (F := F))) (s₀ m ρ) (Pipeline.FramePost cfgs (dats m) 0 (Pipeline.afterTail₀ cfgs (dats m) 0 (V0 m) lossOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := lossOps) (hsub := loss_sub) (hfresh := loss_fresh) (hkeep := loss_keeps)
    (hmain := hmain m Variants.none) (hA := A_eq m) (hin := hin m) (hout := hout m)

/-- The frame claim at any `F`: @main runs to the end and v and T end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Region

end
-- ==== Proof.IdealPieces.lean ====
/-
  What each kind of point leaves, as the body's stored values. A middle or closing point leaves in the accumulator
  the update of what it found; an opening point the update of the zero fill it has just stored and read back; a
  closing point leaves in the result buffer the row maxima, over the temperature, of the accumulator it has just
  updated and read back. Each is the run's pieces read back: one whole-buffer store, last, decides the contents.
-/
import proofs.«153875_j13314398618441_1_alg».proof.Proof.IdealFrame
import Idealize.ShloMosaic.Lib.Pipeline.Value

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zero3 : (![0, 0, 0] : Fin 3 → Nat) = fun _ => 0 := by funext a; fin_cases a <;> rfl
theorem zero2 : (![0, 0] : Fin 2 → Nat) = fun _ => 0 := by funext a; fin_cases a <;> rfl

/-- A middle point leaves the update of what it found. -/
theorem accMid_eq (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : ¬closes i) (x0 : Vec F S64x128 .f32) (x1 : Vec F S128x128x128 .f32) (xs0 : Vec F S64x128x128 .f32) :
    accMid c i arg3 harg3 arg4 harg4 arg5 harg5 arg6 harg6 hc0 hc1 x0 x1 xs0 = k0_pay2 x0 x1 xs0 := by
  unfold accMid
  rw [View.read_writes_eq_canon _ _ _ (acc_cover_mid c i arg3 harg3 arg4 harg4 arg5 harg5 arg6 harg6 hc0 hc1 x0 x1 xs0)]
  unfold runMid; dsimp only
  sl_unfold_words
  rw [View.canon_unit_zero zero3]
  simp only [View.readAt_eq_ld, harg3.read_unread, harg4.read_unread, harg6.read_unread,
    View.ld_unit_zero (S := S64x128) zero2, View.ld_unit_zero (S := S128x128x128) zero3, View.ld_unit_zero (S := S64x128x128) zero3]

/-- So does a closing point. -/
theorem accClose_eq (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) :
    accClose c i arg3 harg3 arg4 harg4 arg5 harg5 arg6 harg6 hc0 hc1 x0 x1 xs0 = k0_pay2 x0 x1 xs0 := by
  unfold accClose
  rw [View.read_writes_eq_canon _ _ _ (acc_cover_close c i arg3 harg3 arg4 harg4 arg5 harg5 arg6 harg6 hc0 hc1 x0 x1 xs0)]
  unfold runClose; dsimp only
  sl_unfold_words
  rw [View.canon_unit_zero zero3]
  simp only [View.readAt_eq_ld, harg3.read_unread, harg4.read_unread, harg6.read_unread,
    View.ld_unit_zero (S := S64x128) zero2, View.ld_unit_zero (S := S128x128x128) zero3, View.ld_unit_zero (S := S64x128x128) zero3]

/-- An opening point leaves the update of the zero fill. -/
theorem accOpen_eq (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : opens i) (hc1 : ¬closes i) (x0 : Vec F S64x128 .f32) (x1 : Vec F S128x128x128 .f32) :
    accOpen c i arg3 harg3 arg4 harg4 arg5 harg5 arg6 harg6 hc0 hc1 x0 x1 = k0_pay2 x0 x1 k0_pay1 := by
  unfold accOpen
  rw [View.read_writes_eq_canon _ _ _ (acc_cover_open c i arg3 harg3 arg4 harg4 arg5 harg5 arg6 harg6 hc0 hc1 x0 x1)]
  unfold runOpen; dsimp only
  sl_unfold_words
  rw [View.canon_cons_unit_zero (S := S64x128x128) zero3]
  simp only [View.readAt_eq_ld, harg3.read_unread, harg4.read_unread,
    View.readCov_unit_zero (S := S64x128x128) _ zero3,
    View.ld_unit_zero (S := S64x128) zero2, View.ld_unit_zero (S := S128x128x128) zero3, View.ld_unit_zero (S := S64x128x128) zero3]

/-- A closing point leaves in the result buffer the row maxima, over the temperature, of the updated accumulator. -/
theorem outClose_eq (c : Dev nD) (i : grid0.Coords) (arg3 : Memref sig .tc .vmem S64x128 .f32) (harg3 : arg3.IsWhole) (arg4 : Memref sig .tc .vmem S128x128x128 .f32) (harg4 : arg4.IsWhole) (arg5 : Memref sig .tc .vmem S64x128 .f32) (harg5 : arg5.IsWhole) (arg6 : Memref sig .tc .vmem S64x128x128 .f32) (harg6 : arg6.IsWhole) (hc0 : ¬opens i) (hc1 : closes i) (x0 : Vec F S64x128 .f32) (x1 : Vec F S128x128x128 .f32) (xs0 : Vec F S64x128x128 .f32) :
    outClose c i arg3 harg3 arg4 harg4 arg5 harg5 arg6 harg6 hc0 hc1 x0 x1 xs0 = k0_pay3 (k0_pay2 x0 x1 xs0) := by
  unfold outClose
  rw [View.read_writes_eq_canon _ _ _ (out_cover_close c i arg3 harg3 arg4 harg4 arg5 harg5 arg6 harg6 hc0 hc1 x0 x1 xs0)]
  unfold runClose; dsimp only
  sl_unfold_words
  rw [View.canon_unit_zero zero2]
  simp only [View.readAt_eq_ld, harg3.read_unread, harg4.read_unread, harg6.read_unread,
    View.readCov_unit_zero (S := S64x128x128) _ zero3,
    View.ld_unit_zero (S := S64x128) zero2, View.ld_unit_zero (S := S128x128x128) zero3, View.ld_unit_zero (S := S64x128x128) zero3]

end Cert.KernelIdeal.Region

end
-- ==== Proof.IdealPayload.lean ====
/-
  The body's three stored values read at an index, on the extended reals. The zero fill is 0 everywhere. The update
  is the accumulator plus the product of the v block [64, 128] with the T block [128, 128, 128] flattened to
  [16384, 128] and transposed: at (a, b, k) that is the accumulator's entry plus the sum over the slab's 128
  coordinates dd of v[a, dd] · T[b, k, dd] (the narrowing to bf16 is the identity here, and a matrix product into a
  zero accumulator is the plain sum). The result block at (a, b) is the fold of max from −∞ over the 128 tokens of the
  accumulator's entries (a, b, ·), divided by the temperature.
-/
import proofs.«153875_j13314398618441_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The zero fill. -/
theorem pay1_apply (y : S64x128x128.Idx) : k0_pay1 (F := Ideal) y = 0 := by
  unfold k0_pay1
  rw [shapeCast_self]
  exact Ideal.ofBits_zero_f32

/-- The product's left index keeps the output's row. -/
theorem dot_lhsIdx_row (j : S64x16384.Idx) (q : dot_S64x128_S128x16384_S64x16384_1_0_0_1_n_n.contr.Idx) :
    (dot_S64x128_S128x16384_S64x16384_1_0_0_1_n_n.lhsIdx j q 0).val = (j 0).val := rfl

/-- The product's left index reads the contraction coordinate on its second axis. -/
theorem dot_lhsIdx_contr (j : S64x16384.Idx) (q : dot_S64x128_S128x16384_S64x16384_1_0_0_1_n_n.contr.Idx) :
    (dot_S64x128_S128x16384_S64x16384_1_0_0_1_n_n.lhsIdx j q 1).val = (q ⟨0, by decide⟩).val :=
  dot_S64x128_S128x16384_S64x16384_1_0_0_1_n_n.lhsIdx_val_of_single rfl j q

/-- The product's right index reads the contraction coordinate on its first axis. -/
theorem dot_rhsIdx_contr (j : S64x16384.Idx) (q : dot_S64x128_S128x16384_S64x16384_1_0_0_1_n_n.contr.Idx) :
    (dot_S64x128_S128x16384_S64x16384_1_0_0_1_n_n.rhsIdx j q 0).val = (q ⟨0, by decide⟩).val :=
  dot_S64x128_S128x16384_S64x16384_1_0_0_1_n_n.rhsIdx_val_of_single rfl j q

/-- The product's right index keeps the output's column. -/
theorem dot_rhsIdx_col (j : S64x16384.Idx) (q : dot_S64x128_S128x16384_S64x16384_1_0_0_1_n_n.contr.Idx) :
    (dot_S64x128_S128x16384_S64x16384_1_0_0_1_n_n.rhsIdx j q 1).val = (j 1).val := rfl

/-- The product into the zero splat read at (a, c): the sum over the 128 contracted coordinates of the left operand's
    entry (a, dd) times the right operand's entry (dd, c). -/
theorem matmul_zero_apply (L : FVec Ideal S64x128 .bf16) (R : FVec Ideal S128x16384 .bf16) (a : Fin 64) (c : Fin 16384) :
    matmul dot_S64x128_S128x16384_S64x16384_1_0_0_1_n_n none L R (constant (F := Ideal) S64x16384 .f32 0x00000000#32) (ix2 a c)
      = ∑ dd : Fin 128, L (ix2 a dd) * R (ix2 dd c) := by
  refine (Ideal.matmul_constant_zero_apply dot_S64x128_S128x16384_S64x16384_1_0_0_1_n_n none L R (ix2 a c)).trans ?_
  rw [← Equiv.sum_comp (contrEquiv1 dot_S64x128_S128x16384_S64x16384_1_0_0_1_n_n 128 rfl rfl).symm]
  refine Finset.sum_congr rfl fun dd _ => ?_
  have hq := contrEquiv1_symm_val dot_S64x128_S128x16384_S64x16384_1_0_0_1_n_n 128 rfl rfl dd
  have hl : dot_S64x128_S128x16384_S64x16384_1_0_0_1_n_n.lhsIdx (ix2 a c) ((contrEquiv1 dot_S64x128_S128x16384_S64x16384_1_0_0_1_n_n 128 rfl rfl).symm dd) = ix2 a dd := by
    funext ax
    apply Fin.ext
    match ax with
    | ⟨0, _⟩ => exact dot_lhsIdx_row _ _
    | ⟨1, _⟩ => exact (dot_lhsIdx_contr _ _).trans hq
  have hr : dot_S64x128_S128x16384_S64x16384_1_0_0_1_n_n.rhsIdx (ix2 a c) ((contrEquiv1 dot_S64x128_S128x16384_S64x16384_1_0_0_1_n_n 128 rfl rfl).symm dd) = ix2 dd c := by
    funext ax
    apply Fin.ext
    match ax with
    | ⟨0, _⟩ => exact (dot_rhsIdx_contr _ _).trans hq
    | ⟨1, _⟩ => exact dot_rhsIdx_col _ _
  rw [hl, hr]

/-- The column of the flattened [64, 16384] product that holds entry (b, k) of a [128, 128] block. -/
def col (b : Fin 128) (k : Fin 128) : Fin 16384 := ⟨b.val * 128 + k.val, by omega⟩

/-- A [64, 16384] array cast to [64, 128, 128] reads, at (a, b, k), the operand at (a, b·128 + k). -/
theorem unflatten_apply {α : Type} (v : S64x16384.Idx → α) (a : Fin 64) (b : Fin 128) (k : Fin 128) :
    shapeCast S64x128x128 v shapeCasts_S64x16384_S64x128x128 (ix3 a b k) = v (ix2 a (col b k)) :=
  shapeCast_apply v _ _ _ (by
    rw [Shape.rowMajor_val_two, Shape.rowMajor_val_three]
    show a.val * 16384 + (b.val * 128 + k.val) = (a.val * 128 + b.val) * 128 + k.val
    omega)

/-- A [128, 128, 128] array cast to [16384, 128] reads, at (b·128 + k, dd), the operand at (b, k, dd). -/
theorem flatten_apply {α : Type} (v : S128x128x128.Idx → α) (b : Fin 128) (k : Fin 128) (dd : Fin 128) :
    shapeCast S16384x128 v shapeCasts_S128x128x128_S16384x128 (ix2 (col b k) dd) = v (ix3 b k dd) :=
  shapeCast_apply v _ _ _ (by
    rw [Shape.rowMajor_val_three, Shape.rowMajor_val_two]
    show (b.val * 128 + k.val) * 128 + dd.val = (b.val * 128 + k.val) * 128 + dd.val
    rfl)

/-- The update: the accumulator's entry plus the slab's 128 products. -/
theorem pay2_apply (x0 : Vec Ideal S64x128 .f32) (x1 : Vec Ideal S128x128x128 .f32) (xs : Vec Ideal S64x128x128 .f32)
    (a : Fin 64) (b : Fin 128) (k : Fin 128) :
    k0_pay2 (F := Ideal) x0 x1 xs (ix3 a b k) = xs (ix3 a b k) + ∑ dd : Fin 128, x0 (ix2 a dd) * x1 (ix3 b k dd) := by
  unfold k0_pay2
  rw [shapeCast_self]
  refine (addf_apply _ _ _).trans ?_
  refine congrArg (xs (ix3 a b k) + ·) ?_
  refine (unflatten_apply _ a b k).trans ?_
  refine (matmul_zero_apply _ _ a (col b k)).trans ?_
  refine Finset.sum_congr rfl fun dd _ => ?_
  rw [truncf_apply, transpose_ix2_apply, flatten_apply, truncf_apply]

/-- The index over (a, b) with token k inserted on the reduced axis is (a, b, k). -/
theorem lift_ix2 (a : Fin 64) (b : Fin 128) (k : Fin 128) :
    reduces_S64x128x128_S64x128.lift (ix2 a b) k = ix3 a b k := by
  funext c
  match c with
  | ⟨0, _⟩ => rfl
  | ⟨1, _⟩ => rfl
  | ⟨2, _⟩ => rfl

/-- The result block: the maximum over the tokens, divided by the temperature. -/
theorem pay3_apply (A : Vec Ideal S64x128x128 .f32) (a : Fin 64) (b : Fin 128) :
    k0_pay3 (F := Ideal) A (ix2 a b)
      = Ideal.div ((Finset.univ : Finset (Fin 128)).fold max (Ideal.ofBits .f32 0xFF800000#32) (fun k => A (ix3 a b k)))
          (Ideal.ofBits .f32 0x3D8F5C29#32) := by
  unfold k0_pay3
  have hred := Ideal.multiReduction_maximumf_single A 0xFF800000#32 reduces_S64x128x128_S64x128 (.inl rfl) rfl (ix2 a b)
  refine (divf_apply _ _ _).trans ?_
  rw [hred]
  have hfun : (A ∘ reduces_S64x128x128_S64x128.lift (ix2 a b)) = fun k : Fin 128 => A (ix3 a b k) :=
    funext fun k => congrArg A (lift_ix2 a b k)
  rw [hfun]
  rfl

end Cert.KernelIdeal.Payload

end
-- ==== Proof.SimSpec.lean ====
/-
  The similarity matrix as one function of v [256, 768] and T [256, 128, 768], on the extended reals:
  entry (i, j) is the maximum over the 128 tokens k of the dot product over d of v[i, ·] and T[j, k, ·], divided by the
  temperature. The maximum is a fold of max from −∞; the temperature is the f32 word of 0.07, a positive real, so
  dividing by it is monotone and fixes −∞: it commutes with the fold. The dot product over the 768 coordinates is the
  sum of its six 128-wide slabs, whatever the order they are added in.
-/
import Idealize.ShloMosaic.PureOps.Ideal
import Idealize.ShloMosaic.PureOps.Ideal.Laws
import Idealize.ShloMosaic.Lib.ValueIdx

noncomputable section

namespace Cert.SimSpec

open Idealize.ShloMosaic Idealize.ShloMosaic.ValueIdx

abbrev Sv : Shape := ⟨2, ![256, 768]⟩
abbrev St : Shape := ⟨3, ![256, 128, 768]⟩
abbrev Ss : Shape := ⟨2, ![256, 256]⟩

/-- The temperature's word and −∞'s word, as the kernel and the reference both spell them. -/
abbrev temp : EReal := Ideal.ofBits .f32 0x3D8F5C29#32
abbrev negInf : EReal := Ideal.ofBits .f32 0xFF800000#32

/-- One product of the contraction, at a coordinate `d` given as a natural number (zero past the axis). -/
def term (v : FVec Ideal Sv .f32) (t : FVec Ideal St .f32) (i j : Fin 256) (k : Fin 128) (d : ℕ) : EReal :=
  if h : d < 768 then v (ix2 i ⟨d, h⟩) * t (ix3 j k ⟨d, h⟩) else 0

/-- The token-level similarity: the dot product over all of d. -/
def tok (v : FVec Ideal Sv .f32) (t : FVec Ideal St .f32) (i j : Fin 256) (k : Fin 128) : EReal :=
  ∑ d : Fin 768, v (ix2 i d) * t (ix3 j k d)

/-- The dot product after the first `n` slabs of 128 coordinates. -/
def partialTok (v : FVec Ideal Sv .f32) (t : FVec Ideal St .f32) (i j : Fin 256) (k : Fin 128) (n : ℕ) : EReal :=
  ∑ s ∈ Finset.range n, ∑ dd : Fin 128, term v t i j k (s * 128 + dd.val)

/-- The similarity matrix. -/
def simMax (v : FVec Ideal Sv .f32) (t : FVec Ideal St .f32) : FVec Ideal Ss .f32 := fun p =>
  Ideal.div ((Finset.univ : Finset (Fin 128)).fold max negInf (fun k => tok v t (p 0) (p 1) k)) temp

theorem negInf_eq_bot : negInf = (⊥ : EReal) := by
  simp [Ideal.ofBits, Ideal.ieee]

theorem zero_word : Ideal.ofBits .f32 0x00000000#32 = (0 : EReal) := by
  simp [Ideal.ofBits, Ideal.ieee]

/-- The temperature is the positive real 9395241 / 2^27. -/
theorem temp_eq_coe : temp = ((9395241 / 134217728 : ℝ) : EReal) := by
  simp [Ideal.ofBits, Ideal.ieee, -EReal.coe_mul]; norm_num

/-- Dividing by the temperature is multiplying by a positive real. -/
theorem div_temp_eq_mul (x : EReal) : Ideal.div x temp = x * ((1 / (9395241 / 134217728 : ℝ) : ℝ) : EReal) := by
  rw [temp_eq_coe, Ideal.div_coe (by norm_num)]

theorem recip_temp_pos : (0 : ℝ) < 1 / (9395241 / 134217728 : ℝ) := by norm_num

/-- Multiplying on the right by a nonnegative extended real is monotone. -/
theorem monotone_mul_right_of_nonneg {c : EReal} (hc : 0 ≤ c) : Monotone (fun x : EReal => x * c) :=
  fun _ _ h => mul_le_mul_of_nonneg_right h hc

/-- Dividing by the temperature commutes with max, -/
theorem div_temp_max (x y : EReal) : Ideal.div (max x y) temp = max (Ideal.div x temp) (Ideal.div y temp) := by
  simp only [div_temp_eq_mul]
  exact (monotone_mul_right_of_nonneg (EReal.coe_nonneg.mpr recip_temp_pos.le)).map_max

/-- and fixes −∞, -/
theorem div_temp_negInf : Ideal.div negInf temp = negInf := by
  rw [div_temp_eq_mul, negInf_eq_bot, EReal.bot_mul_coe_of_pos recip_temp_pos]

/-- so it commutes with the fold of max from −∞. -/
theorem fold_max_div {ι : Type} (s : Finset ι) (f : ι → EReal) :
    s.fold max negInf (fun k => Ideal.div (f k) temp) = Ideal.div (s.fold max negInf f) temp := by
  have h := Finset.fold_hom (op := max) (op' := max) (b := negInf) (s := s) (f := f)
    (m := fun x => Ideal.div x temp) (fun x y => div_temp_max x y)
  rw [div_temp_negInf] at h
  exact h

theorem partialTok_zero (v : FVec Ideal Sv .f32) (t : FVec Ideal St .f32) (i j : Fin 256) (k : Fin 128) :
    partialTok v t i j k 0 = 0 := by
  unfold partialTok; exact Finset.sum_range_zero _

theorem partialTok_succ (v : FVec Ideal Sv .f32) (t : FVec Ideal St .f32) (i j : Fin 256) (k : Fin 128) (n : ℕ) :
    partialTok v t i j k (n + 1) = partialTok v t i j k n + ∑ dd : Fin 128, term v t i j k (n * 128 + dd.val) := by
  unfold partialTok; exact Finset.sum_range_succ _ n

/-- Six slabs are the whole contraction. -/
theorem partialTok_six (v : FVec Ideal Sv .f32) (t : FVec Ideal St .f32) (i j : Fin 256) (k : Fin 128) :
    partialTok v t i j k 6 = tok v t i j k := by
  unfold partialTok tok
  rw [Finset.sum_range (fun s => ∑ dd : Fin 128, term v t i j k (s * 128 + dd.val)),
    ← Fintype.sum_prod_type' (f := fun (s : Fin 6) (dd : Fin 128) => term v t i j k (s.val * 128 + dd.val)),
    ← (finProdFinEquiv (m := 6) (n := 128)).sum_comp]
  refine Finset.sum_congr rfl fun p _ => ?_
  have h : p.1.val * 128 + p.2.val < 768 := by have := p.1.isLt; have := p.2.isLt; omega
  rw [term, dif_pos h]
  have e : (finProdFinEquiv p : Fin 768) = ⟨p.1.val * 128 + p.2.val, h⟩ := by
    apply Fin.ext; simp [finProdFinEquiv]; omega
  rw [e]

end Cert.SimSpec

end
-- ==== Proof.IdealValue.lean ====
/-
  The similarity matrix the kernel's region leaves, read off its frame run on the extended reals. Grid point t is
  output block (t / 12, t / 6 mod 2) and slab t mod 6 of the contracted axis. By induction on the point, after slab s of
  an accumulation the accumulator's entry (a, b, k) is the dot product of row t/12·64 + a of v with token k of row
  (t/6 mod 2)·128 + b of T over the first s + 1 slabs: an opening point adds its slab to the zero fill, a later point
  to what the point before left. After the sixth slab that is the whole dot product, and the block the closing point
  writes back is the fold of max over the tokens divided by the temperature: the block of the specification's matrix.
  The eight closing points' blocks tile the 256 x 256 array, so the array ends as the specification's matrix.
-/
import proofs.«153875_j13314398618441_1_alg».proof.Proof.IdealPieces
import proofs.«153875_j13314398618441_1_alg».proof.Proof.IdealPayload
import proofs.«153875_j13314398618441_1_alg».proof.Proof.SimSpec

set_option maxRecDepth 16384

noncomputable section

namespace Cert.KernelIdeal.Region

open Cert.KernelIdeal.Gen
open Idealize.ShloMosaic Idealize.ShloMosaic.TcCoe Idealize.ShloMosaic.ValueIdx
open Idealize.SL Idealize.SL.Sem
open Idealize.ShloMosaic.Pipeline (Dat Cfg Window)
open Cert.SimSpec

variable (m : (ℓ : Loc nD τ sig) → Buf (Elt Ideal) ℓ) (ρ : Dev nD → PrngReg)

theorem lt48 (t : Fin cfg0.N) : t.val < 48 := lt_of_lt_of_eq t.isLt N_0

/-- The row of v, the row of T and the coordinate of d that a block's entry is, at point `t`. -/
def rowI (t : Fin cfg0.N) (a : Fin 64) : Fin 256 := ⟨t.val / 12 * 64 + a.val, by have := lt48 t; have := a.isLt; omega⟩
def rowJ (t : Fin cfg0.N) (b : Fin 128) : Fin 256 := ⟨t.val / 6 % 2 * 128 + b.val, by have := b.isLt; omega⟩
def colD (t : Fin cfg0.N) (dd : Fin 128) : Fin 768 := ⟨t.val % 6 * 128 + dd.val, by have := dd.isLt; omega⟩

/-- The printed index maps over the 48 points: the last grid axis (the slab) is the fastest. -/
theorem idx_facts : ∀ t : Fin cfg0.N,
    win0_0.index t (0 : Fin 2) = t.val / 12 ∧ win0_0.index t (1 : Fin 2) = t.val % 6
    ∧ win0_1.index t (0 : Fin 3) = t.val / 6 % 2 ∧ win0_1.index t (1 : Fin 3) = 0 ∧ win0_1.index t (2 : Fin 3) = t.val % 6
    ∧ win0_2.index t (0 : Fin 2) = t.val / 12 ∧ win0_2.index t (1 : Fin 2) = t.val / 6 % 2 :=
  (by decide +kernel : ∀ t : Fin grid0.N, _)

/-- The two input blocks at their literal types. -/
abbrev vBlk (c : Dev nD) (t : Fin cfg0.N) : Vec Ideal S64x128 .f32 := iblk m c 0 t
abbrev tBlk (c : Dev nD) (t : Fin cfg0.N) : Vec Ideal S128x128x128 .f32 := iblk m c 1 t

/-- Entry (a, dd) of the v block at `t` is v at (row, coordinate). -/
theorem vBlk_apply (c : Dev nD) (t : Fin cfg0.N) (a : Fin 64) (dd : Fin 128) :
    vBlk m c t (ix2 a dd) = V m c main_arg0 (ix2 (rowI t a) (colD t dd)) := by
  show V m c main_arg0 (((cfg0.win 0).blk t).view.emb (ix2 a dd)) = _
  obtain ⟨e0, e1, -⟩ := idx_facts t
  refine congrArg (V m c main_arg0) ?_
  funext ax; apply Fin.ext
  match ax with
  | ⟨0, _⟩ => show win0_0.index t (0 : Fin 2) * 64 + 1 * a.val = t.val / 12 * 64 + a.val; rw [e0]; omega
  | ⟨1, _⟩ => show win0_0.index t (1 : Fin 2) * 128 + 1 * dd.val = t.val % 6 * 128 + dd.val; rw [e1]; omega

/-- Entry (b, k, dd) of the T block at `t` is T at (row, token, coordinate). -/
theorem tBlk_apply (c : Dev nD) (t : Fin cfg0.N) (b k dd : Fin 128) :
    tBlk m c t (ix3 b k dd) = V m c main_arg1 (ix3 (rowJ t b) k (colD t dd)) := by
  show V m c main_arg1 (((cfg0.win 1).blk t).view.emb (ix3 b k dd)) = _
  obtain ⟨-, -, e2, e3, e4, -⟩ := idx_facts t
  refine congrArg (V m c main_arg1) ?_
  funext ax; apply Fin.ext
  match ax with
  | ⟨0, _⟩ => show win0_1.index t (0 : Fin 3) * 128 + 1 * b.val = t.val / 6 % 2 * 128 + b.val; rw [e2]; omega
  | ⟨1, _⟩ => show win0_1.index t (1 : Fin 3) * 128 + 1 * k.val = k.val; rw [e3]; omega
  | ⟨2, _⟩ => show win0_1.index t (2 : Fin 3) * 128 + 1 * dd.val = t.val % 6 * 128 + dd.val; rw [e4]; omega

/-- The slab a point adds: its 128 products are the specification's terms at the slab's coordinates. -/
theorem slab_eq (c : Dev nD) (t : Fin cfg0.N) (a : Fin 64) (b k : Fin 128) :
    ∑ dd : Fin 128, vBlk m c t (ix2 a dd) * tBlk m c t (ix3 b k dd)
      = ∑ dd : Fin 128, term (V m c main_arg0) (V m c main_arg1) (rowI t a) (rowJ t b) k (t.val % 6 * 128 + dd.val) := by
  refine Finset.sum_congr rfl fun dd _ => ?_
  rw [vBlk_apply, tBlk_apply, term, dif_pos (show t.val % 6 * 128 + dd.val < 768 from (colD t dd).isLt)]
  rfl

/-- After an opening point: the first slab. -/
theorem acc_open (c : Dev nD) (t : Fin cfg0.N) (h0 : t.val % 6 = 0) (h1 : ¬t.val % 6 = 5) (a : Fin 64) (b k : Fin 128) :
    (heldAt m c t.val t.isLt).2 (ix3 a b k)
      = partialTok (V m c main_arg0) (V m c main_arg1) (rowI t a) (rowJ t b) k (t.val % 6 + 1) := by
  rw [heldAt_open m c t h0 h1]; dsimp only
  refine (congrFun (accOpen_eq (F := Ideal) c (grid0.coords t) (ms0_0 t) (hs0_0 t) (ms0_1 t) (hs0_1 t) (ms0_2 t) (hs0_2 t) accM (Memref.isWhole_whole _) ((opens_iff t).mpr h0) (fun h => h1 ((closes_iff t).mp h)) (vBlk m c t) (tBlk m c t)) (ix3 a b k)).trans ?_
  refine (Cert.KernelIdeal.Payload.pay2_apply (vBlk m c t) (tBlk m c t) (k0_pay1 (F := Ideal)) a b k).trans ?_
  rw [Cert.KernelIdeal.Payload.pay1_apply, zero_add, slab_eq, h0, partialTok_succ, partialTok_zero, zero_add]

/-- After a later point: one more slab on what the point before left. -/
theorem acc_later (c : Dev nD) (t : Fin cfg0.N) (h0 : ¬t.val % 6 = 0) (a : Fin 64) (b k : Fin 128)
    (ih : (heldAt m c (t.val - 1) (Nat.lt_of_le_of_lt (Nat.sub_le _ _) t.isLt)).2 (ix3 a b k)
      = partialTok (V m c main_arg0) (V m c main_arg1) (rowI t a) (rowJ t b) k (t.val % 6)) :
    (heldAt m c t.val t.isLt).2 (ix3 a b k)
      = partialTok (V m c main_arg0) (V m c main_arg1) (rowI t a) (rowJ t b) k (t.val % 6 + 1) := by
  by_cases h1 : t.val % 6 = 5
  · rw [heldAt_close m c t h0 h1]; dsimp only
    refine (congrFun (accClose_eq (F := Ideal) c (grid0.coords t) (ms0_0 t) (hs0_0 t) (ms0_1 t) (hs0_1 t) (ms0_2 t) (hs0_2 t) accM (Memref.isWhole_whole _) (fun h => h0 ((opens_iff t).mp h)) ((closes_iff t).mpr h1) (vBlk m c t) (tBlk m c t) (heldAt m c (t.val - 1) (Nat.lt_of_le_of_lt (Nat.sub_le _ _) t.isLt)).2) (ix3 a b k)).trans ?_
    refine (Cert.KernelIdeal.Payload.pay2_apply (vBlk m c t) (tBlk m c t) _ a b k).trans ?_
    rw [ih, slab_eq, partialTok_succ]
  · rw [heldAt_mid m c t h0 h1]; dsimp only
    refine (congrFun (accMid_eq (F := Ideal) c (grid0.coords t) (ms0_0 t) (hs0_0 t) (ms0_1 t) (hs0_1 t) (ms0_2 t) (hs0_2 t) accM (Memref.isWhole_whole _) (fun h => h0 ((opens_iff t).mp h)) (fun h => h1 ((closes_iff t).mp h)) (vBlk m c t) (tBlk m c t) (heldAt m c (t.val - 1) (Nat.lt_of_le_of_lt (Nat.sub_le _ _) t.isLt)).2) (ix3 a b k)).trans ?_
    refine (Cert.KernelIdeal.Payload.pay2_apply (vBlk m c t) (tBlk m c t) _ a b k).trans ?_
    rw [ih, slab_eq, partialTok_succ]

/-- THE ACCUMULATION: after point `n` the accumulator holds the dot products over the slabs so far. -/
theorem acc_inv (c : Dev nD) : ∀ (n : ℕ) (hn : n < cfg0.N) (a : Fin 64) (b k : Fin 128),
    (heldAt m c n hn).2 (ix3 a b k)
      = partialTok (V m c main_arg0) (V m c main_arg1) (rowI ⟨n, hn⟩ a) (rowJ ⟨n, hn⟩ b) k (n % 6 + 1) := by
  intro n
  induction n with
  | zero =>
    intro hn a b k
    exact acc_open m c ⟨0, hn⟩ (Nat.zero_mod _) (by show ¬(0 % 6 = 5); decide) a b k
  | succ n ih =>
    intro hn a b k
    by_cases h0 : (n + 1) % 6 = 0
    · exact acc_open m c ⟨n + 1, hn⟩ h0 (by show ¬((n + 1) % 6 = 5); omega) a b k
    · refine acc_later m c ⟨n + 1, hn⟩ h0 a b k ?_
      have e := ih (Nat.lt_of_succ_lt hn) a b k
      have hI : rowI ⟨n, Nat.lt_of_succ_lt hn⟩ a = rowI ⟨n + 1, hn⟩ a := by
        apply Fin.ext; show n / 12 * 64 + a.val = (n + 1) / 12 * 64 + a.val; omega
      have hJ : rowJ ⟨n, Nat.lt_of_succ_lt hn⟩ b = rowJ ⟨n + 1, hn⟩ b := by
        apply Fin.ext; show n / 6 % 2 * 128 + b.val = (n + 1) / 6 % 2 * 128 + b.val; omega
      have hs : n % 6 + 1 = (n + 1) % 6 := by omega
      rw [hI, hJ, hs] at e
      exact e

/-- What a closing point writes back: the block of the specification's matrix. -/
theorem out_close (c : Dev nD) (t : Fin cfg0.N) (h1 : t.val % 6 = 5) (a : Fin 64) (b : Fin 128) :
    (heldAt m c t.val t.isLt).1 (ix2 a b) = simMax (V m c main_arg0) (V m c main_arg1) (ix2 (rowI t a) (rowJ t b)) := by
  have h0 : ¬t.val % 6 = 0 := by omega
  have hacc : ∀ k : Fin 128, (heldAt m c t.val t.isLt).2 (ix3 a b k) = tok (V m c main_arg0) (V m c main_arg1) (rowI t a) (rowJ t b) k := fun k => by
    rw [acc_inv m c t.val t.isLt a b k, h1, partialTok_six]
  rw [heldAt_close m c t h0 h1] at hacc ⊢; dsimp only at hacc ⊢
  refine (congrFun (outClose_eq (F := Ideal) c (grid0.coords t) (ms0_0 t) (hs0_0 t) (ms0_1 t) (hs0_1 t) (ms0_2 t) (hs0_2 t) accM (Memref.isWhole_whole _) (fun h => h0 ((opens_iff t).mp h)) ((closes_iff t).mpr h1) (vBlk m c t) (tBlk m c t) (heldAt m c (t.val - 1) (Nat.lt_of_le_of_lt (Nat.sub_le _ _) t.isLt)).2) (ix2 a b)).trans ?_
  refine (Cert.KernelIdeal.Payload.pay3_apply _ a b).trans ?_
  have hk : ∀ k : Fin 128, k0_pay2 (F := Ideal) (vBlk m c t) (tBlk m c t) (heldAt m c (t.val - 1) (Nat.lt_of_le_of_lt (Nat.sub_le _ _) t.isLt)).2 (ix3 a b k)
      = tok (V m c main_arg0) (V m c main_arg1) (rowI t a) (rowJ t b) k := fun k => by
    rw [← hacc k]
    exact (congrFun (accClose_eq (F := Ideal) c (grid0.coords t) (ms0_0 t) (hs0_0 t) (ms0_1 t) (hs0_1 t) (ms0_2 t) (hs0_2 t) accM (Memref.isWhole_whole _) (fun h => h0 ((opens_iff t).mp h)) ((closes_iff t).mpr h1) (vBlk m c t) (tBlk m c t) (heldAt m c (t.val - 1) (Nat.lt_of_le_of_lt (Nat.sub_le _ _) t.isLt)).2) (ix3 a b k)).symm
  simp only [hk]
  rfl

/-! ## From the eight blocks to the array -/

/-- At a closing point the result buffer holds, entry by entry, the specification's matrix at the block's place. -/
theorem out_block (c : Dev nD) (t : Fin cfg0.N) (h1 : t.val % 6 = 5) (y : S64x128.Idx) :
    (heldAt m c t.val t.isLt).1 y = simMax (V m c main_arg0) (V m c main_arg1) (((cfg0.win 2).blk t).view.emb y) := by
  obtain ⟨p, q, rfl⟩ : ∃ (p : Fin 64) (q : Fin 128), y = ix2 p q := ⟨y 0, y 1, eq_ix2 y⟩
  rw [out_close m c t h1 p q]
  refine congrArg (simMax (V m c main_arg0) (V m c main_arg1)) ?_
  obtain ⟨-, -, -, -, -, e5, e6⟩ := idx_facts t
  funext ax; apply Fin.ext
  match ax with
  | ⟨0, _⟩ => show t.val / 12 * 64 + p.val = win0_2.index t (0 : Fin 2) * 64 + 1 * p.val; rw [e5]; omega
  | ⟨1, _⟩ => show t.val / 6 % 2 * 128 + q.val = win0_2.index t (1 : Fin 2) * 128 + 1 * q.val; rw [e6]; omega

/-- What a closing point writes back is its block of the specification's matrix. -/
theorem flushed_eq (c : Dev nD) (t : Fin cfg0.N) (hf : (cfg0.win 2).flush t = true) :
    (dats m 0 c).flushed 2 t = ((cfg0.win 2).blk t).view.read (Elt Ideal) (simMax (V m c main_arg0) (V m c main_arg1)) := by
  have h1 : t.val % 6 = 5 := (flush0_2 t).mp hf
  show (cfg0.win 2).cut (grid0.coords t) ((dats m 0 c).after 2 t) = _
  rw [after0_2]
  funext y
  exact out_block m c t h1 y

/-- An index of the 256 x 256 array is in point `t`'s block iff each coordinate is in the block's range. -/
theorem mem_blk (t : Fin cfg0.N) (i : S256x256.Idx) :
    i ∈ ((cfg0.win 2).blk t).view.set ↔ ∀ a : Fin 2, win0_2.index t a * S64x128.size a ≤ (i a).val ∧ (i a).val < win0_2.index t a * S64x128.size a + S64x128.size a := by
  show i ∈ ((View.whole main_v0).slice (win0_2.rect t)).set ↔ _
  rw [View.set_slice_whole, Rect.mem_set_unit]
  exact Iff.rfl

/-- Every entry (i, j) lies in the block of the closing point of accumulation (i / 64, j / 128). -/
theorem covered (i : S256x256.Idx) : ∃ t : Fin cfg0.N, (cfg0.win 2).flush t = true ∧ i ∈ ((cfg0.win 2).blk t).view.set := by
  have hi0 : (i 0).val < 256 := (i 0).isLt
  have hi1 : (i 1).val < 256 := (i 1).isLt
  obtain ⟨n, hn⟩ : ∃ n, n = ((i 0).val / 64 * 2 + (i 1).val / 128) * 6 + 5 := ⟨_, rfl⟩
  have hN : n < cfg0.N := by rw [show cfg0.N = 48 from N_0]; omega
  refine ⟨⟨n, hN⟩, (flush0_2 ⟨n, hN⟩).mpr (by show n % 6 = 5; omega), ?_⟩
  rw [mem_blk]
  obtain ⟨-, -, -, -, -, e5, e6⟩ := idx_facts ⟨n, hN⟩
  intro a
  match a with
  | ⟨0, _⟩ =>
    show win0_2.index ⟨n, hN⟩ (0 : Fin 2) * 64 ≤ (i 0).val ∧ (i 0).val < win0_2.index ⟨n, hN⟩ (0 : Fin 2) * 64 + 64
    rw [e5]; show n / 12 * 64 ≤ (i 0).val ∧ (i 0).val < n / 12 * 64 + 64; omega
  | ⟨1, _⟩ =>
    show win0_2.index ⟨n, hN⟩ (1 : Fin 2) * 128 ≤ (i 1).val ∧ (i 1).val < win0_2.index ⟨n, hN⟩ (1 : Fin 2) * 128 + 128
    rw [e6]; show n / 6 % 2 * 128 ≤ (i 1).val ∧ (i 1).val < n / 6 % 2 * 128 + 128; omega

/-- THE ARRAY after the region: the specification's similarity matrix of the two arguments. -/
theorem simArr_eq (c : Dev nD) : (dats m 0 c).arrAt 2 cfg0.N = simMax (V m c main_arg0) (V m c main_arg1) :=
  (dats m 0 c).arrAt_eq_of_cover 2 (simMax (V m c main_arg0) (V m c main_arg1)) (fun t ht => flushed_eq m c t ht) covered

end Cert.KernelIdeal.Region

end
-- ==== Proof.IdealLoss.lean ====
/-
  What the 81 host lines after the call compute, as one function of the similarity matrix: the iota of the targets, the
  row-wise log-softmax of the matrix and of its transpose, and from each the negated mean of its diagonal; the loss is
  half their sum. The lines run in five stretches; each stretch is read as a function of the buffers it finds, and a
  stretch leaves the buffers it does not write as they were.
-/
import proofs.«153875_j13314398618441_1_alg».proof.Proof.Gen.KernelIdeal.Launch
import Idealize.ShloMosaic.Lib.StableHlo.Run

noncomputable section

namespace Cert.KernelIdeal.Loss

open Cert.KernelIdeal Cert.KernelIdeal.Gen Idealize.ShloMosaic Idealize.ShloMosaic.TcCoe Idealize.SL.Sem Idealize.ShloMosaic.StableHlo

variable {F : FTy → Type} [FloatOps F]

/-- The row-wise log-softmax of a 256 x 256 matrix, as the program spells it: subtract the row maximum (taken from −∞, then
    once more against −∞), exponentiate, sum each row from zero, and subtract the logarithm of the sum. -/
def logSoftmaxRows (x : (⟨S256x256, .f32⟩ : BufTy).Contents (Elt F)) : (⟨S256x256, .f32⟩ : BufTy).Contents (Elt F) :=
  let rowMax : (⟨S256, .f32⟩ : BufTy).Contents (Elt F) :=
    maximumf (broadcastInDim S256 ![] bcast_S_S256 (constant S_ .f32 0xFF800000#32))
      (Host.reduce FloatOps.maximumf x (constant S_ .f32 0xFF800000#32) reducesTo_S256x256_S256_d1 h_S_)
  let shifted : (⟨S256x256, .f32⟩ : BufTy).Contents (Elt F) :=
    subf x (broadcastInDim S256x256 ![0, 1] bcast_S256x1_S256x256_0_1 (broadcastInDim S256x1 ![0] bcast_S256_S256x1_0 rowMax))
  subf shifted (broadcastInDim S256x256 ![0, 1] bcast_S256x1_S256x256_0_1
    (Host.log (broadcastInDim S256x1 ![0] bcast_S256_S256x1_0
      (Host.reduceAdd (Host.exp shifted) (constant S_ .f32 0x00000000#32) reducesTo_S256x256_S256_d1 h_S_))))

/-- The target indices 0 … 255 with jnp's wrap of negative indices (add 256 where negative). -/
def wrapIdx (i : (⟨S256, .i32⟩ : BufTy).Contents (Elt F)) : (⟨S256, .i32⟩ : BufTy).Contents (Elt F) :=
  select (cmpi .slt i (broadcastInDim S256 ![] bcast_S_S256 (constantI S_ 32 0#32)))
    (addi i (broadcastInDim S256 ![] bcast_S_S256 (constantI S_ 32 256#32))) i

/-- Minus the mean of the diagonal of `ls`: gather at (i, i), sum from zero, divide by 256, negate. -/
def negMeanDiag (ls : (⟨S256x256, .f32⟩ : BufTy).Contents (Elt F)) (i : (⟨S256, .i32⟩ : BufTy).Contents (Elt F)) :
    (⟨S_, .f32⟩ : BufTy).Contents (Elt F) :=
  Host.negf (Host.divf
    (Host.reduceAdd
      (Host.gather gather_S256x256_S256x2_S256_n_01_n_n_01_1_11 ls
        (concatenate S256x2 1 [⟨S256x1, broadcastInDim S256x1 ![0] bcast_S256_S256x1_0 (wrapIdx (F := F) i)⟩,
          ⟨S256x1, broadcastInDim S256x1 ![0] bcast_S256_S256x1_0 (wrapIdx (F := F) i)⟩] concatenates_S256x1_S256x1_S256x2_d1))
      (constant S_ .f32 0x00000000#32) reducesTo_S256_S_d0 h_S_)
    (constant S_ .f32 0x43800000#32))

/-- The loss from the similarity matrix: the two cross-entropies (rows, and rows of the transpose) averaged. -/
def lossOf (sim : (⟨S256x256, .f32⟩ : BufTy).Contents (Elt F)) : (⟨S_, .f32⟩ : BufTy).Contents (Elt F) :=
  Host.divf
    (addf (negMeanDiag (logSoftmaxRows sim) (iotaInDim S256 32 0))
      (negMeanDiag (logSoftmaxRows (transpose S256x256 [1, 0] sim transposes_S256x256_S256x256_1_0)) (iotaInDim S256 32 0)))
    (constant S_ .f32 0x40000000#32)

/-- The first stretch leaves the iota in its buffer, -/
theorem iota_after (V : Valuation τ sig (Elt F)) :
    after (hostOps1 : List (HloOp τ sig (Elt F))) V (Proc.devRef .tc main_v1) = iotaInDim S256 32 0 := by
  after_results

/-- and the similarity matrix as it was. -/
theorem iota_keeps_v0 (V : Valuation τ sig (Elt F)) :
    after (hostOps1 : List (HloOp τ sig (Elt F))) V (Proc.devRef .tc main_v0) = V (Proc.devRef .tc main_v0) := by
  after_results

/-- The second stretch leaves the row-wise log-softmax of the matrix, -/
theorem rows_after (V : Valuation τ sig (Elt F)) :
    after (hostOps1_1 : List (HloOp τ sig (Elt F))) V (Proc.devRef .tc main_v2)
      = logSoftmaxRows (F := F) (V (Proc.devRef .tc main_v0)) := by
  after_results
  simp only [TRef.ofBuf, TRef.toBuf, cast_eq]
  rfl

/-- the matrix as it was, -/
theorem rows_keeps_v0 (V : Valuation τ sig (Elt F)) :
    after (hostOps1_1 : List (HloOp τ sig (Elt F))) V (Proc.devRef .tc main_v0) = V (Proc.devRef .tc main_v0) := by
  after_results

/-- and the iota as it was. -/
theorem rows_keeps_v1 (V : Valuation τ sig (Elt F)) :
    after (hostOps1_1 : List (HloOp τ sig (Elt F))) V (Proc.devRef .tc main_v1) = V (Proc.devRef .tc main_v1) := by
  after_results

/-- The third stretch leaves the transpose of the matrix, -/
theorem transpose_after (V : Valuation τ sig (Elt F)) :
    after (hostOps1_2 : List (HloOp τ sig (Elt F))) V (Proc.devRef .tc main_v3)
      = transpose S256x256 [1, 0] (V (Proc.devRef .tc main_v0)) transposes_S256x256_S256x256_1_0 := by
  after_results

/-- the iota as it was, -/
theorem transpose_keeps_v1 (V : Valuation τ sig (Elt F)) :
    after (hostOps1_2 : List (HloOp τ sig (Elt F))) V (Proc.devRef .tc main_v1) = V (Proc.devRef .tc main_v1) := by
  after_results

/-- and the first log-softmax as it was. -/
theorem transpose_keeps_v2 (V : Valuation τ sig (Elt F)) :
    after (hostOps1_2 : List (HloOp τ sig (Elt F))) V (Proc.devRef .tc main_v2) = V (Proc.devRef .tc main_v2) := by
  after_results

/-- The fourth stretch leaves the row-wise log-softmax of the transpose, -/
theorem cols_after (V : Valuation τ sig (Elt F)) :
    after (hostOps1_3 : List (HloOp τ sig (Elt F))) V (Proc.devRef .tc main_v4)
      = logSoftmaxRows (F := F) (V (Proc.devRef .tc main_v3)) := by
  after_results
  simp only [TRef.ofBuf, TRef.toBuf, cast_eq]
  rfl

/-- the iota as it was, -/
theorem cols_keeps_v1 (V : Valuation τ sig (Elt F)) :
    after (hostOps1_3 : List (HloOp τ sig (Elt F))) V (Proc.devRef .tc main_v1) = V (Proc.devRef .tc main_v1) := by
  after_results

/-- and the first log-softmax as it was. -/
theorem cols_keeps_v2 (V : Valuation τ sig (Elt F)) :
    after (hostOps1_3 : List (HloOp τ sig (Elt F))) V (Proc.devRef .tc main_v2) = V (Proc.devRef .tc main_v2) := by
  after_results

/-- Two index columns side by side. -/
def cat2 (a b : (⟨S256x1, .i32⟩ : BufTy).Contents (Elt F)) : (⟨S256x2, .i32⟩ : BufTy).Contents (Elt F) :=
  concatenate S256x2 1 [⟨S256x1, a⟩, ⟨S256x1, b⟩] concatenates_S256x1_S256x1_S256x2_d1

theorem concatenate_eq_cat2 (a b : (⟨S256x1, .i32⟩ : BufTy).Contents (Elt F)) :
    concatenate S256x2 1 [⟨S256x1, a⟩, ⟨S256x1, b⟩] concatenates_S256x1_S256x1_S256x2_d1 = cat2 (F := F) a b := rfl

/-- The last stretch leaves half the sum of the two negated diagonal means. -/
theorem mean_after (V : Valuation τ sig (Elt F)) :
    after (hostOps1_4 : List (HloOp τ sig (Elt F))) V (Proc.devRef .tc main_v40)
      = Host.divf
          (addf (negMeanDiag (F := F) (V (Proc.devRef .tc main_v2)) (V (Proc.devRef .tc main_v1)))
            (negMeanDiag (F := F) (V (Proc.devRef .tc main_v4)) (V (Proc.devRef .tc main_v1))))
          (constant S_ .f32 0x40000000#32) := by
  after_results_simp
  rw [concatenate_eq_cat2, concatenate_eq_cat2]
  after_results_simp
  rfl

/-- Two lines run one after the other. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The five stretches after the call, run from any contents `W`, leave the loss of `W`'s similarity matrix in the
    result buffer. -/
theorem loss_after (W : Valuation τ sig (Elt F)) :
    after (List.flatten [hostOps1, hostOps1_1, hostOps1_2, hostOps1_3, hostOps1_4] : List (HloOp τ sig (Elt F))) W (Proc.devRef .tc main_v40)
      = lossOf (F := F) (W (Proc.devRef .tc main_v0)) := by
  rw [List.flatten_cons, List.flatten_cons, List.flatten_cons, List.flatten_cons, List.flatten_cons, List.flatten_nil,
    List.append_nil, after_append, after_append, after_append, after_append]
  rw [mean_after, cols_after, cols_keeps_v1, cols_keeps_v2, transpose_after, transpose_keeps_v1, transpose_keeps_v2,
    rows_after, rows_keeps_v0, rows_keeps_v1, iota_after, iota_keeps_v0]
  rfl

end Cert.KernelIdeal.Loss

end
-- ==== Proof.IdealResult.lean ====
/-
  The idealized kernel's run with its result. The launch's post has every buffer the region bypasses at what the 81 later
  lines compute from the region's arrays; the result buffer is one of those, the later lines' fold is the loss of the
  similarity matrix they find, and that matrix is the array the region wrote: the specification's. So the program ends
  with the loss of the specification's similarity matrix of its two arguments, which end as they began.
-/
import proofs.«153875_j13314398618441_1_alg».proof.Proof.IdealValue
import proofs.«153875_j13314398618441_1_alg».proof.Proof.IdealLoss

set_option maxRecDepth 16384

noncomputable section

namespace Cert.KernelIdeal.Region

open Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

/-- The result buffer is no array of the pipeline and is unscoped: the region bypasses it. -/
theorem result_bypasses : main_v40 ∈ Pipeline.restRefs sig spec0 :=
  Pipeline.mem_restRefs_of main_v40 rfl (fun w => by fin_cases w <;> decide)

/-- What the later lines leave in the result buffer: the loss of the specification's similarity matrix. -/
theorem result_eq (c : Dev nD) :
    Pipeline.afterTail₀ cfgs (dats m) 0 (V0 m) lossOps c main_v40
      = Cert.KernelIdeal.Loss.lossOf (F := Ideal)
          (Cert.SimSpec.simMax (m ((c.tc : Thread nD τ).loc main_arg0)) (m ((c.tc : Thread nD τ).loc main_arg1))) := by
  unfold Pipeline.afterTail₀
  refine (Cert.KernelIdeal.Loss.loss_after (F := Ideal) _).trans ?_
  refine congrArg (Cert.KernelIdeal.Loss.lossOf (F := Ideal)) ?_
  refine (Pipeline.withArrays_arr spec0 launch0.win.arr_inj c _ _ 2).trans ?_
  exact simArr_eq m c

/-- Every weakly fair execution of the idealized kernel's @main terminates with the loss of the specification's
    similarity matrix in the result buffer and the two arguments unchanged. -/
theorem run_value : θ_run defs (onTc (τ := τ) (main (F := Ideal))) ⟨m, fun _ => 0, ρ⟩ fun r => ∀ c : Dev nD,
      r.2.mem ((c.tc : Thread nD τ).loc main_v40)
        = Cert.KernelIdeal.Loss.lossOf (F := Ideal)
            (Cert.SimSpec.simMax (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v40 result_bypasses).trans (result_eq m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Region

end
-- ==== Proof.RefSimMax.lean ====
/-
  The reference's similarity matrix is the specification's. The reference contracts v [256, 768] with T [256, 128, 768]
  over d into [256, 256, 128], divides every entry by the temperature, and takes the maximum over the last axis from
  −∞. Read at (i, j): the fold of max from −∞ over the tokens k of (the dot product over d) / temperature; dividing by
  the temperature commutes with that fold.
-/
import proofs.«153875_j13314398618441_1_alg».proof.Proof.Gen.ReferenceIdeal
import proofs.«153875_j13314398618441_1_alg».proof.Proof.SimSpec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.ReferenceIdeal.SimMax

open Cert.ReferenceIdeal Cert.ReferenceIdeal.Gen Idealize.ShloMosaic Idealize.ShloMosaic.ValueIdx

/-- The reference's first six operations as one function of its two arguments. -/
def refSim {F : FTy → Type} [FloatOps F] (l : FVec F S256x768 .f32) (r : FVec F S256x128x768 .f32) : FVec F S256x256 .f32 :=
  Host.reduce FloatOps.maximumf
    (Host.divf (Host.dotGeneral dot_S256x768_S256x128x768_S256x256x128_1_2_0_01_n_n none l r)
      (broadcastInDim S256x256x128 ![] bcast_S_S256x256x128 (constant S_ .f32 0x3D8F5C29#32)))
    (constant S_ .f32 0xFF800000#32) reducesTo_S256x256x128_S256x256_d2 h_S_

/-- The reduction over the last axis of [256, 256, 128] into [256, 256]. -/
theorem reduces_last : S256x256x128.Reduces [2] S256x256 := by decide

/-- The index over (i, j) with the token k inserted on the last axis is (i, j, k). -/
theorem lift_ix2 (i j : Fin 256) (k : Fin 128) : reduces_last.lift (ix2 i j) k = ix3 i j k := by
  funext c
  match c with
  | ⟨0, _⟩ => rfl
  | ⟨1, _⟩ => rfl
  | ⟨2, _⟩ => rfl

/-- The left operand's index: the row of the result on axis 0, -/
theorem lhsIdx_ax0 (q : S256x256x128.Idx) (c : dot_S256x768_S256x128x768_S256x256x128_1_2_0_01_n_n.contr.Idx) :
    (dot_S256x768_S256x128x768_S256x256x128_1_2_0_01_n_n.lhsIdx q c 0 : ℕ) = q 0 := by
  simp [DotDims.lhsIdx, dot_S256x768_S256x128x768_S256x256x128_1_2_0_01_n_n]; rfl

/-- the contracted coordinate on axis 1. -/
theorem lhsIdx_ax1 (q : S256x256x128.Idx) (c : dot_S256x768_S256x128x768_S256x256x128_1_2_0_01_n_n.contr.Idx) :
    (dot_S256x768_S256x128x768_S256x256x128_1_2_0_01_n_n.lhsIdx q c 1 : ℕ) = c ⟨0, Nat.one_pos⟩ :=
  dot_S256x768_S256x128x768_S256x256x128_1_2_0_01_n_n.lhsIdx_val_of_single rfl q c

/-- The right operand's index: the result's column on axis 0, -/
theorem rhsIdx_ax0 (q : S256x256x128.Idx) (c : dot_S256x768_S256x128x768_S256x256x128_1_2_0_01_n_n.contr.Idx) :
    (dot_S256x768_S256x128x768_S256x256x128_1_2_0_01_n_n.rhsIdx q c 0 : ℕ) = q 1 := by
  simp [DotDims.rhsIdx, dot_S256x768_S256x128x768_S256x256x128_1_2_0_01_n_n]; rfl

/-- the result's token on axis 1, -/
theorem rhsIdx_ax1 (q : S256x256x128.Idx) (c : dot_S256x768_S256x128x768_S256x256x128_1_2_0_01_n_n.contr.Idx) :
    (dot_S256x768_S256x128x768_S256x256x128_1_2_0_01_n_n.rhsIdx q c 1 : ℕ) = q 2 := by
  simp [DotDims.rhsIdx, dot_S256x768_S256x128x768_S256x256x128_1_2_0_01_n_n]; rfl

/-- the contracted coordinate on axis 2. -/
theorem rhsIdx_ax2 (q : S256x256x128.Idx) (c : dot_S256x768_S256x128x768_S256x256x128_1_2_0_01_n_n.contr.Idx) :
    (dot_S256x768_S256x128x768_S256x256x128_1_2_0_01_n_n.rhsIdx q c 2 : ℕ) = c ⟨0, Nat.one_pos⟩ :=
  dot_S256x768_S256x128x768_S256x256x128_1_2_0_01_n_n.rhsIdx_val_of_single rfl q c

/-- The contraction read at (i, j, k) is the dot product over the 768 coordinates. -/
theorem dot_apply (l : FVec Ideal S256x768 .f32) (r : FVec Ideal S256x128x768 .f32) (i j : Fin 256) (k : Fin 128) :
    Host.dotGeneral (F := Ideal) dot_S256x768_S256x128x768_S256x256x128_1_2_0_01_n_n none l r (ix3 i j k)
      = Cert.SimSpec.tok l r i j k := by
  show FloatOps.dotGeneral _ none _ l r (ix3 i j k) = _
  unfold Cert.SimSpec.tok
  rw [Ideal.dotGeneral_apply,
    ← Equiv.sum_comp (contrEquiv1 dot_S256x768_S256x128x768_S256x256x128_1_2_0_01_n_n 768 rfl rfl).symm]
  refine Finset.sum_congr rfl fun d _ => ?_
  have cv := contrEquiv1_symm_val dot_S256x768_S256x128x768_S256x256x128_1_2_0_01_n_n 768 rfl rfl d
  have hl : dot_S256x768_S256x128x768_S256x256x128_1_2_0_01_n_n.lhsIdx (ix3 i j k)
      ((contrEquiv1 dot_S256x768_S256x128x768_S256x256x128_1_2_0_01_n_n 768 rfl rfl).symm d) = ix2 i d := by
    funext ax; apply Fin.ext
    match ax with
    | ⟨0, _⟩ => exact lhsIdx_ax0 _ _
    | ⟨1, _⟩ => exact (lhsIdx_ax1 _ _).trans cv
  have hr : dot_S256x768_S256x128x768_S256x256x128_1_2_0_01_n_n.rhsIdx (ix3 i j k)
      ((contrEquiv1 dot_S256x768_S256x128x768_S256x256x128_1_2_0_01_n_n 768 rfl rfl).symm d) = ix3 j k d := by
    funext ax; apply Fin.ext
    match ax with
    | ⟨0, _⟩ => exact rhsIdx_ax0 _ _
    | ⟨1, _⟩ => exact rhsIdx_ax1 _ _
    | ⟨2, _⟩ => exact (rhsIdx_ax2 _ _).trans cv
  rw [hl, hr]

/-- The broadcast temperature reads the temperature everywhere. -/
theorem temp_apply (q : S256x256x128.Idx) :
    broadcastInDim S256x256x128 ![] bcast_S_S256x256x128 (constant (F := Ideal) S_ .f32 0x3D8F5C29#32) q
      = Cert.SimSpec.temp := rfl

/-- On the extended reals it is the similarity matrix of the specification. -/
theorem refSim_eq (l : FVec Ideal S256x768 .f32) (r : FVec Ideal S256x128x768 .f32) :
    refSim (F := Ideal) l r = Cert.SimSpec.simMax l r := by
  funext p
  obtain ⟨i, j, rfl⟩ : ∃ (i j : Fin 256), p = ix2 i j := ⟨p 0, p 1, eq_ix2 p⟩
  unfold refSim
  rw [Host.reduce_eq_fold_single FloatOps.maximumf _ _ reducesTo_S256x256x128_S256x256_d2 reduces_last h_S_ (ix2 i j)]
  show (Finset.univ : Finset (Fin 128)).fold max Cert.SimSpec.negInf
      (fun k => Ideal.div
        (Host.dotGeneral (F := Ideal) dot_S256x768_S256x128x768_S256x256x128_1_2_0_01_n_n none l r (reduces_last.lift (ix2 i j) k))
        (broadcastInDim S256x256x128 ![] bcast_S_S256x256x128 (constant (F := Ideal) S_ .f32 0x3D8F5C29#32) (reduces_last.lift (ix2 i j) k)))
    = Ideal.div ((Finset.univ : Finset (Fin 128)).fold max Cert.SimSpec.negInf (fun k => Cert.SimSpec.tok l r i j k)) Cert.SimSpec.temp
  rw [← Cert.SimSpec.fold_max_div]
  refine congrArg (fun f => (Finset.univ : Finset (Fin 128)).fold max Cert.SimSpec.negInf f) (funext fun (k : Fin 128) => ?_)
  rw [lift_ix2 i j k, dot_apply, temp_apply]

end Cert.ReferenceIdeal.SimMax

end
-- ==== Proof.RefLoss.lean ====
/-
  What the reference's 87 host operations compute, as one function of its two arguments: the first six make the
  similarity matrix (the contraction over d, the division by the temperature, the maximum over the tokens); the other
  81 — the iota of the targets, the row-wise log-softmax of the matrix and of its transpose, the negated means of the
  two diagonals, half their sum — are the loss of that matrix. The operations are read in stretches; a stretch leaves
  the buffers it does not write as they were.
-/
import proofs.«153875_j13314398618441_1_alg».proof.Proof.RefRun
import proofs.«153875_j13314398618441_1_alg».proof.Proof.RefSimMax
import Idealize.ShloMosaic.Lib.StableHlo.Run

noncomputable section

namespace Cert.ReferenceIdeal.Loss

open Cert.ReferenceIdeal Cert.ReferenceIdeal.Gen Idealize.ShloMosaic Idealize.ShloMosaic.TcCoe Idealize.SL.Sem Idealize.ShloMosaic.StableHlo

variable {F : FTy → Type} [FloatOps F]

/-- The row-wise log-softmax of a 256 x 256 matrix, as the program spells it: subtract the row maximum (taken from −∞, then
    once more against −∞), exponentiate, sum each row from zero, and subtract the logarithm of the sum. -/
def logSoftmaxRows (x : (⟨S256x256, .f32⟩ : BufTy).Contents (Elt F)) : (⟨S256x256, .f32⟩ : BufTy).Contents (Elt F) :=
  let rowMax : (⟨S256, .f32⟩ : BufTy).Contents (Elt F) :=
    maximumf (broadcastInDim S256 ![] bcast_S_S256 (constant S_ .f32 0xFF800000#32))
      (Host.reduce FloatOps.maximumf x (constant S_ .f32 0xFF800000#32) reducesTo_S256x256_S256_d1 h_S_)
  let shifted : (⟨S256x256, .f32⟩ : BufTy).Contents (Elt F) :=
    subf x (broadcastInDim S256x256 ![0, 1] bcast_S256x1_S256x256_0_1 (broadcastInDim S256x1 ![0] bcast_S256_S256x1_0 rowMax))
  subf shifted (broadcastInDim S256x256 ![0, 1] bcast_S256x1_S256x256_0_1
    (Host.log (broadcastInDim S256x1 ![0] bcast_S256_S256x1_0
      (Host.reduceAdd (Host.exp shifted) (constant S_ .f32 0x00000000#32) reducesTo_S256x256_S256_d1 h_S_))))

/-- The target indices 0 … 255 with jnp's wrap of negative indices (add 256 where negative). -/
def wrapIdx (i : (⟨S256, .i32⟩ : BufTy).Contents (Elt F)) : (⟨S256, .i32⟩ : BufTy).Contents (Elt F) :=
  select (cmpi .slt i (broadcastInDim S256 ![] bcast_S_S256 (constantI S_ 32 0#32)))
    (addi i (broadcastInDim S256 ![] bcast_S_S256 (constantI S_ 32 256#32))) i

/-- Minus the mean of the diagonal of `ls`: gather at (i, i), sum from zero, divide by 256, negate. -/
def negMeanDiag (ls : (⟨S256x256, .f32⟩ : BufTy).Contents (Elt F)) (i : (⟨S256, .i32⟩ : BufTy).Contents (Elt F)) :
    (⟨S_, .f32⟩ : BufTy).Contents (Elt F) :=
  Host.negf (Host.divf
    (Host.reduceAdd
      (Host.gather gather_S256x256_S256x2_S256_n_01_n_n_01_1_11 ls
        (concatenate S256x2 1 [⟨S256x1, broadcastInDim S256x1 ![0] bcast_S256_S256x1_0 (wrapIdx (F := F) i)⟩,
          ⟨S256x1, broadcastInDim S256x1 ![0] bcast_S256_S256x1_0 (wrapIdx (F := F) i)⟩] concatenates_S256x1_S256x1_S256x2_d1))
      (constant S_ .f32 0x00000000#32) reducesTo_S256_S_d0 h_S_)
    (constant S_ .f32 0x43800000#32))

/-- The loss from the similarity matrix: the two cross-entropies (rows, and rows of the transpose) averaged. -/
def lossOf (sim : (⟨S256x256, .f32⟩ : BufTy).Contents (Elt F)) : (⟨S_, .f32⟩ : BufTy).Contents (Elt F) :=
  Host.divf
    (addf (negMeanDiag (logSoftmaxRows sim) (iotaInDim S256 32 0))
      (negMeanDiag (logSoftmaxRows (transpose S256x256 [1, 0] sim transposes_S256x256_S256x256_1_0)) (iotaInDim S256 32 0)))
    (constant S_ .f32 0x40000000#32)

/-- Operations 1 to 6: the similarity matrix. -/
abbrev s0 : List (HloOp τ sig (Elt F)) :=
  [ binary main_arg0 main_arg1 main_v0 ((fun l r => Host.dotGeneral dot_S256x768_S256x128x768_S256x256x128_1_2_0_01_n_n none l r) : (⟨S256x768, .f32⟩ : BufTy).Contents (Elt F) → (⟨S256x128x768, .f32⟩ : BufTy).Contents (Elt F) → (⟨S256x256x128, .f32⟩ : BufTy).Contents (Elt F)),
    nullary main_cst (constant S_ .f32 0x3D8F5C29#32),
    unary main_cst main_v1 (broadcastInDim S256x256x128 ![] bcast_S_S256x256x128 : (⟨S_, .f32⟩ : BufTy).Contents (Elt F) → (⟨S256x256x128, .f32⟩ : BufTy).Contents (Elt F)),
    binary main_v0 main_v1 main_v2 (Host.divf : (⟨S256x256x128, .f32⟩ : BufTy).Contents (Elt F) → (⟨S256x256x128, .f32⟩ : BufTy).Contents (Elt F) → (⟨S256x256x128, .f32⟩ : BufTy).Contents (Elt F)),
    nullary main_cst_0 (constant S_ .f32 0xFF800000#32),
    binary main_v2 main_cst_0 main_v3 ((fun x v => Host.reduce FloatOps.maximumf x v reducesTo_S256x256x128_S256x256_d2 h_S_) : (⟨S256x256x128, .f32⟩ : BufTy).Contents (Elt F) → (⟨S_, .f32⟩ : BufTy).Contents (Elt F) → (⟨S256x256, .f32⟩ : BufTy).Contents (Elt F)) ]

/-- Operation 7: the iota of the targets. -/
abbrev s1 : List (HloOp τ sig (Elt F)) :=
  [ nullary main_v4 (iotaInDim S256 32 0) ]

/-- Operations 8 to 22: the row-wise log-softmax of the matrix. -/
abbrev s2 : List (HloOp τ sig (Elt F)) :=
  [ TRef.nullary (TRef.of (T := ⟨S_, .f32⟩) main_call0_cst) (constant S_ .f32 0xFF800000#32),
    TRef.binary (TRef.of (T := ⟨S256x256, .f32⟩) main_v3) (TRef.of (T := ⟨S_, .f32⟩) main_call0_cst) (TRef.of (T := ⟨S256, .f32⟩) main_call0_v0) (fun x v => Host.reduce FloatOps.maximumf x v reducesTo_S256x256_S256_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S256, .f32⟩) main_call0_v1) (broadcastInDim S256 ![] bcast_S_S256),
    TRef.binary (TRef.of (T := ⟨S256, .f32⟩) main_call0_v1) (TRef.of (T := ⟨S256, .f32⟩) main_call0_v0) (TRef.of (T := ⟨S256, .f32⟩) main_call0_v2) maximumf,
    TRef.unary (TRef.of (T := ⟨S256, .f32⟩) main_call0_v2) (TRef.of (T := ⟨S256x1, .f32⟩) main_call0_v3) (broadcastInDim S256x1 ![0] bcast_S256_S256x1_0),
    TRef.unary (TRef.of (T := ⟨S256x1, .f32⟩) main_call0_v3) (TRef.of (T := ⟨S256x256, .f32⟩) main_call0_v4) (broadcastInDim S256x256 ![0, 1] bcast_S256x1_S256x256_0_1),
    TRef.binary (TRef.of (T := ⟨S256x256, .f32⟩) main_v3) (TRef.of (T := ⟨S256x256, .f32⟩) main_call0_v4) (TRef.of (T := ⟨S256x256, .f32⟩) main_call0_v5) subf,
    TRef.unary (TRef.of (T := ⟨S256x256, .f32⟩) main_call0_v5) (TRef.of (T := ⟨S256x256, .f32⟩) main_call0_v6) Host.exp,
    TRef.nullary (TRef.of (T := ⟨S_, .f32⟩) main_call0_cst_1) (constant S_ .f32 0x00000000#32),
    TRef.binary (TRef.of (T := ⟨S256x256, .f32⟩) main_call0_v6) (TRef.of (T := ⟨S_, .f32⟩) main_call0_cst_1) (TRef.of (T := ⟨S256, .f32⟩) main_call0_v7) (fun x v => Host.reduceAdd x v reducesTo_S256x256_S256_d1 h_S_),
    TRef.unary (TRef.of (T := ⟨S256, .f32⟩) main_call0_v7) (TRef.of (T := ⟨S256x1, .f32⟩) main_call0_v8) (broadcastInDim S256x1 ![0] bcast_S256_S256x1_0),
    TRef.unary (TRef.of (T := ⟨S256x1, .f32⟩) main_call0_v8) (TRef.of (T := ⟨S256x1, .f32⟩) main_call0_v9) Host.log,
    TRef.unary (TRef.of (T := ⟨S256x1, .f32⟩) main_call0_v9) (TRef.of (T := ⟨S256x256, .f32⟩) main_call0_v10) (broadcastInDim S256x256 ![0, 1] bcast_S256x1_S256x256_0_1),
    TRef.binary (TRef.of (T := ⟨S256x256, .f32⟩) main_call0_v5) (TRef.of (T := ⟨S256x256, .f32⟩) main_call0_v10) (TRef.of (T := ⟨S256x256, .f32⟩) main_v5) subf ]

/-- Operation 23: the transpose of the matrix. -/
abbrev s3 : List (HloOp τ sig (Elt F)) :=
  [ unary main_v3 main_v6 ((transpose S256x256 [1, 0] · transposes_S256x256_S256x256_1_0) : (⟨S256x256, .f32⟩ : BufTy).Contents (Elt F) → (⟨S256x256, .f32⟩ : BufTy).Contents (Elt F)) ]

/-- Operations 24 to 38: the row-wise log-softmax of the transpose. -/
abbrev s4 : List (HloOp τ sig (Elt F)) :=
  [ TRef.nullary (TRef.of (T := ⟨S_, .f32⟩) main_call1_cst) (constant S_ .f32 0xFF800000#32),
    TRef.binary (TRef.of (T := ⟨S256x256, .f32⟩) main_v6) (TRef.of (T := ⟨S_, .f32⟩) main_call1_cst) (TRef.of (T := ⟨S256, .f32⟩) main_call1_v0) (fun x v => Host.reduce FloatOps.maximumf x v reducesTo_S256x256_S256_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S256, .f32⟩) main_call1_v1) (broadcastInDim S256 ![] bcast_S_S256),
    TRef.binary (TRef.of (T := ⟨S256, .f32⟩) main_call1_v1) (TRef.of (T := ⟨S256, .f32⟩) main_call1_v0) (TRef.of (T := ⟨S256, .f32⟩) main_call1_v2) maximumf,
    TRef.unary (TRef.of (T := ⟨S256, .f32⟩) main_call1_v2) (TRef.of (T := ⟨S256x1, .f32⟩) main_call1_v3) (broadcastInDim S256x1 ![0] bcast_S256_S256x1_0),
    TRef.unary (TRef.of (T := ⟨S256x1, .f32⟩) main_call1_v3) (TRef.of (T := ⟨S256x256, .f32⟩) main_call1_v4) (broadcastInDim S256x256 ![0, 1] bcast_S256x1_S256x256_0_1),
    TRef.binary (TRef.of (T := ⟨S256x256, .f32⟩) main_v6) (TRef.of (T := ⟨S256x256, .f32⟩) main_call1_v4) (TRef.of (T := ⟨S256x256, .f32⟩) main_call1_v5) subf,
    TRef.unary (TRef.of (T := ⟨S256x256, .f32⟩) main_call1_v5) (TRef.of (T := ⟨S256x256, .f32⟩) main_call1_v6) Host.exp,
    TRef.nullary (TRef.of (T := ⟨S_, .f32⟩) main_call1_cst_1) (constant S_ .f32 0x00000000#32),
    TRef.binary (TRef.of (T := ⟨S256x256, .f32⟩) main_call1_v6) (TRef.of (T := ⟨S_, .f32⟩) main_call1_cst_1) (TRef.of (T := ⟨S256, .f32⟩) main_call1_v7) (fun x v => Host.reduceAdd x v reducesTo_S256x256_S256_d1 h_S_),
    TRef.unary (TRef.of (T := ⟨S256, .f32⟩) main_call1_v7) (TRef.of (T := ⟨S256x1, .f32⟩) main_call1_v8) (broadcastInDim S256x1 ![0] bcast_S256_S256x1_0),
    TRef.unary (TRef.of (T := ⟨S256x1, .f32⟩) main_call1_v8) (TRef.of (T := ⟨S256x1, .f32⟩) main_call1_v9) Host.log,
    TRef.unary (TRef.of (T := ⟨S256x1, .f32⟩) main_call1_v9) (TRef.of (T := ⟨S256x256, .f32⟩) main_call1_v10) (broadcastInDim S256x256 ![0, 1] bcast_S256x1_S256x256_0_1),
    TRef.binary (TRef.of (T := ⟨S256x256, .f32⟩) main_call1_v5) (TRef.of (T := ⟨S256x256, .f32⟩) main_call1_v10) (TRef.of (T := ⟨S256x256, .f32⟩) main_v7) subf ]

/-- Operations 39 to 61: minus the mean of the first log-softmax's diagonal. -/
abbrev s5 : List (HloOp τ sig (Elt F)) :=
  [ nullary main_c (constantI S_ 32 0#32),
    unary main_c main_v8 (broadcastInDim S256 ![] bcast_S_S256 : (⟨S_, .i32⟩ : BufTy).Contents (Elt F) → (⟨S256, .i32⟩ : BufTy).Contents (Elt F)),
    binary main_v4 main_v8 main_v9 (cmpi .slt : (⟨S256, .i32⟩ : BufTy).Contents (Elt F) → (⟨S256, .i32⟩ : BufTy).Contents (Elt F) → (⟨S256, .i1⟩ : BufTy).Contents (Elt F)),
    nullary main_c_1 (constantI S_ 32 256#32),
    unary main_c_1 main_v10 (broadcastInDim S256 ![] bcast_S_S256 : (⟨S_, .i32⟩ : BufTy).Contents (Elt F) → (⟨S256, .i32⟩ : BufTy).Contents (Elt F)),
    binary main_v4 main_v10 main_v11 (addi : (⟨S256, .i32⟩ : BufTy).Contents (Elt F) → (⟨S256, .i32⟩ : BufTy).Contents (Elt F) → (⟨S256, .i32⟩ : BufTy).Contents (Elt F)),
    ternary main_v9 main_v11 main_v4 main_v12 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    nullary main_c_2 (constantI S_ 32 0#32),
    unary main_c_2 main_v13 (broadcastInDim S256 ![] bcast_S_S256 : (⟨S_, .i32⟩ : BufTy).Contents (Elt F) → (⟨S256, .i32⟩ : BufTy).Contents (Elt F)),
    binary main_v4 main_v13 main_v14 (cmpi .slt : (⟨S256, .i32⟩ : BufTy).Contents (Elt F) → (⟨S256, .i32⟩ : BufTy).Contents (Elt F) → (⟨S256, .i1⟩ : BufTy).Contents (Elt F)),
    nullary main_c_3 (constantI S_ 32 256#32),
    unary main_c_3 main_v15 (broadcastInDim S256 ![] bcast_S_S256 : (⟨S_, .i32⟩ : BufTy).Contents (Elt F) → (⟨S256, .i32⟩ : BufTy).Contents (Elt F)),
    binary main_v4 main_v15 main_v16 (addi : (⟨S256, .i32⟩ : BufTy).Contents (Elt F) → (⟨S256, .i32⟩ : BufTy).Contents (Elt F) → (⟨S256, .i32⟩ : BufTy).Contents (Elt F)),
    ternary main_v14 main_v16 main_v4 main_v17 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v12 main_v18 (broadcastInDim S256x1 ![0] bcast_S256_S256x1_0 : (⟨S256, .i32⟩ : BufTy).Contents (Elt F) → (⟨S256x1, .i32⟩ : BufTy).Contents (Elt F)),
    unary main_v17 main_v19 (broadcastInDim S256x1 ![0] bcast_S256_S256x1_0 : (⟨S256, .i32⟩ : BufTy).Contents (Elt F) → (⟨S256x1, .i32⟩ : BufTy).Contents (Elt F)),
    binary main_v18 main_v19 main_v20 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    binary main_v5 main_v20 main_v21 ((fun x i => Host.gather gather_S256x256_S256x2_S256_n_01_n_n_01_1_11 x i) : (⟨S256x256, .f32⟩ : BufTy).Contents (Elt F) → (⟨S256x2, .i32⟩ : BufTy).Contents (Elt F) → (⟨S256, .f32⟩ : BufTy).Contents (Elt F)),
    nullary main_cst_4 (constant S_ .f32 0x00000000#32),
    binary main_v21 main_cst_4 main_v22 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_5 (constant S_ .f32 0x43800000#32),
    binary main_v22 main_cst_5 main_v23 (Host.divf : (⟨S_, .f32⟩ : BufTy).Contents (Elt F) → (⟨S_, .f32⟩ : BufTy).Contents (Elt F) → (⟨S_, .f32⟩ : BufTy).Contents (Elt F)),
    unary main_v23 main_v24 (Host.negf : (⟨S_, .f32⟩ : BufTy).Contents (Elt F) → (⟨S_, .f32⟩ : BufTy).Contents (Elt F)) ]

/-- Operations 62 to 87: minus the mean of the second diagonal, the sum of the two, its half. -/
abbrev s6 : List (HloOp τ sig (Elt F)) :=
  [ nullary main_c_6 (constantI S_ 32 0#32),
    unary main_c_6 main_v25 (broadcastInDim S256 ![] bcast_S_S256 : (⟨S_, .i32⟩ : BufTy).Contents (Elt F) → (⟨S256, .i32⟩ : BufTy).Contents (Elt F)),
    binary main_v4 main_v25 main_v26 (cmpi .slt : (⟨S256, .i32⟩ : BufTy).Contents (Elt F) → (⟨S256, .i32⟩ : BufTy).Contents (Elt F) → (⟨S256, .i1⟩ : BufTy).Contents (Elt F)),
    nullary main_c_7 (constantI S_ 32 256#32),
    unary main_c_7 main_v27 (broadcastInDim S256 ![] bcast_S_S256 : (⟨S_, .i32⟩ : BufTy).Contents (Elt F) → (⟨S256, .i32⟩ : BufTy).Contents (Elt F)),
    binary main_v4 main_v27 main_v28 (addi : (⟨S256, .i32⟩ : BufTy).Contents (Elt F) → (⟨S256, .i32⟩ : BufTy).Contents (Elt F) → (⟨S256, .i32⟩ : BufTy).Contents (Elt F)),
    ternary main_v26 main_v28 main_v4 main_v29 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    nullary main_c_8 (constantI S_ 32 0#32),
    unary main_c_8 main_v30 (broadcastInDim S256 ![] bcast_S_S256 : (⟨S_, .i32⟩ : BufTy).Contents (Elt F) → (⟨S256, .i32⟩ : BufTy).Contents (Elt F)),
    binary main_v4 main_v30 main_v31 (cmpi .slt : (⟨S256, .i32⟩ : BufTy).Contents (Elt F) → (⟨S256, .i32⟩ : BufTy).Contents (Elt F) → (⟨S256, .i1⟩ : BufTy).Contents (Elt F)),
    nullary main_c_9 (constantI S_ 32 256#32),
    unary main_c_9 main_v32 (broadcastInDim S256 ![] bcast_S_S256 : (⟨S_, .i32⟩ : BufTy).Contents (Elt F) → (⟨S256, .i32⟩ : BufTy).Contents (Elt F)),
    binary main_v4 main_v32 main_v33 (addi : (⟨S256, .i32⟩ : BufTy).Contents (Elt F) → (⟨S256, .i32⟩ : BufTy).Contents (Elt F) → (⟨S256, .i32⟩ : BufTy).Contents (Elt F)),
    ternary main_v31 main_v33 main_v4 main_v34 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v29 main_v35 (broadcastInDim S256x1 ![0] bcast_S256_S256x1_0 : (⟨S256, .i32⟩ : BufTy).Contents (Elt F) → (⟨S256x1, .i32⟩ : BufTy).Contents (Elt F)),
    unary main_v34 main_v36 (broadcastInDim S256x1 ![0] bcast_S256_S256x1_0 : (⟨S256, .i32⟩ : BufTy).Contents (Elt F) → (⟨S256x1, .i32⟩ : BufTy).Contents (Elt F)),
    binary main_v35 main_v36 main_v37 ((fun a b => concatenate S256x2 1 [⟨S256x1, a⟩, ⟨S256x1, b⟩] concatenates_S256x1_S256x1_S256x2_d1) : (⟨S256x1, .i32⟩ : BufTy).Contents (Elt F) → (⟨S256x1, .i32⟩ : BufTy).Contents (Elt F) → (⟨S256x2, .i32⟩ : BufTy).Contents (Elt F)),
    binary main_v7 main_v37 main_v38 ((fun x i => Host.gather gather_S256x256_S256x2_S256_n_01_n_n_01_1_11 x i) : (⟨S256x256, .f32⟩ : BufTy).Contents (Elt F) → (⟨S256x2, .i32⟩ : BufTy).Contents (Elt F) → (⟨S256, .f32⟩ : BufTy).Contents (Elt F)),
    nullary main_cst_10 (constant S_ .f32 0x00000000#32),
    binary main_v38 main_cst_10 main_v39 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_11 (constant S_ .f32 0x43800000#32),
    binary main_v39 main_cst_11 main_v40 (Host.divf : (⟨S_, .f32⟩ : BufTy).Contents (Elt F) → (⟨S_, .f32⟩ : BufTy).Contents (Elt F) → (⟨S_, .f32⟩ : BufTy).Contents (Elt F)),
    unary main_v40 main_v41 (Host.negf : (⟨S_, .f32⟩ : BufTy).Contents (Elt F) → (⟨S_, .f32⟩ : BufTy).Contents (Elt F)),
    binary main_v24 main_v41 main_v42 (addf : (⟨S_, .f32⟩ : BufTy).Contents (Elt F) → (⟨S_, .f32⟩ : BufTy).Contents (Elt F) → (⟨S_, .f32⟩ : BufTy).Contents (Elt F)),
    nullary main_cst_12 (constant S_ .f32 0x40000000#32),
    binary main_v42 main_cst_12 main_v43 (Host.divf : (⟨S_, .f32⟩ : BufTy).Contents (Elt F) → (⟨S_, .f32⟩ : BufTy).Contents (Elt F) → (⟨S_, .f32⟩ : BufTy).Contents (Elt F)) ]

/-- The 87 operations are the seven stretches in a row. -/
theorem ops_eq : (Cert.ReferenceIdeal.RunP.ops : List (HloOp τ sig (Elt F))) = s0 ++ (s1 ++ (s2 ++ (s3 ++ (s4 ++ (s5 ++ s6))))) := rfl

/-- The fold over two lines in a row is the fold over the second from the fold over the first. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

variable (V : Valuation τ sig (Elt F))

/-! The first stretch leaves the similarity matrix of the two arguments. -/

theorem s0_v3 : after (s0 (F := F)) V (Proc.devRef .tc main_v3)
    = Cert.ReferenceIdeal.SimMax.refSim (F := F) (V (Proc.devRef .tc main_arg0)) (V (Proc.devRef .tc main_arg1)) := by
  after_results
  rfl

/-! The iota leaves the target indices, and the matrix as it was. -/

theorem s1_v4 : after (s1 (F := F)) V (Proc.devRef .tc main_v4) = iotaInDim S256 32 0 := by
  after_results

theorem s1_v3 : after (s1 (F := F)) V (Proc.devRef .tc main_v3) = V (Proc.devRef .tc main_v3) := by
  after_results

/-! The first log-softmax reads the matrix; it leaves the matrix and the indices as they were. -/

theorem s2_v5 : after (s2 (F := F)) V (Proc.devRef .tc main_v5) = logSoftmaxRows (F := F) (V (Proc.devRef .tc main_v3)) := by
  after_results
  simp only [TRef.ofBuf, TRef.toBuf, cast_eq]
  rfl

theorem s2_v3 : after (s2 (F := F)) V (Proc.devRef .tc main_v3) = V (Proc.devRef .tc main_v3) := by
  after_results

theorem s2_v4 : after (s2 (F := F)) V (Proc.devRef .tc main_v4) = V (Proc.devRef .tc main_v4) := by
  after_results

/-! The transpose reads the matrix; it leaves the indices and the first log-softmax as they were. -/

theorem s3_v6 : after (s3 (F := F)) V (Proc.devRef .tc main_v6)
    = transpose S256x256 [1, 0] (V (Proc.devRef .tc main_v3)) transposes_S256x256_S256x256_1_0 := by
  after_results

theorem s3_v4 : after (s3 (F := F)) V (Proc.devRef .tc main_v4) = V (Proc.devRef .tc main_v4) := by
  after_results

theorem s3_v5 : after (s3 (F := F)) V (Proc.devRef .tc main_v5) = V (Proc.devRef .tc main_v5) := by
  after_results

/-! The second log-softmax reads the transpose; it leaves the indices and the first log-softmax as they were. -/

theorem s4_v7 : after (s4 (F := F)) V (Proc.devRef .tc main_v7) = logSoftmaxRows (F := F) (V (Proc.devRef .tc main_v6)) := by
  after_results
  simp only [TRef.ofBuf, TRef.toBuf, cast_eq]
  rfl

theorem s4_v4 : after (s4 (F := F)) V (Proc.devRef .tc main_v4) = V (Proc.devRef .tc main_v4) := by
  after_results

theorem s4_v5 : after (s4 (F := F)) V (Proc.devRef .tc main_v5) = V (Proc.devRef .tc main_v5) := by
  after_results

/-! The first negated diagonal mean reads the first log-softmax and the indices; it leaves the indices and the second
    log-softmax as they were. -/

set_option maxHeartbeats 4000000 in
theorem s5_v24 : after (s5 (F := F)) V (Proc.devRef .tc main_v24)
    = negMeanDiag (F := F) (V (Proc.devRef .tc main_v5)) (V (Proc.devRef .tc main_v4)) := by
  after_results
  rfl

theorem s5_v4 : after (s5 (F := F)) V (Proc.devRef .tc main_v4) = V (Proc.devRef .tc main_v4) := by
  after_results

theorem s5_v7 : after (s5 (F := F)) V (Proc.devRef .tc main_v7) = V (Proc.devRef .tc main_v7) := by
  after_results

/-! The last stretch reads the first negated mean, the second log-softmax and the indices. -/

set_option maxHeartbeats 4000000 in
theorem s6_v43 : after (s6 (F := F)) V (Proc.devRef .tc main_v43)
    = Host.divf (addf (V (Proc.devRef .tc main_v24))
        (negMeanDiag (F := F) (V (Proc.devRef .tc main_v7)) (V (Proc.devRef .tc main_v4))))
      (constant S_ .f32 0x40000000#32) := by
  after_results
  rfl

/-! No stretch writes either argument. -/

theorem s0_arg0 : after (s0 (F := F)) V (Proc.devRef .tc main_arg0) = V (Proc.devRef .tc main_arg0) := by
  after_results

theorem s1_arg0 : after (s1 (F := F)) V (Proc.devRef .tc main_arg0) = V (Proc.devRef .tc main_arg0) := by
  after_results

theorem s2_arg0 : after (s2 (F := F)) V (Proc.devRef .tc main_arg0) = V (Proc.devRef .tc main_arg0) := by
  after_results

theorem s3_arg0 : after (s3 (F := F)) V (Proc.devRef .tc main_arg0) = V (Proc.devRef .tc main_arg0) := by
  after_results

theorem s4_arg0 : after (s4 (F := F)) V (Proc.devRef .tc main_arg0) = V (Proc.devRef .tc main_arg0) := by
  after_results

theorem s5_arg0 : after (s5 (F := F)) V (Proc.devRef .tc main_arg0) = V (Proc.devRef .tc main_arg0) := by
  after_results

theorem s6_arg0 : after (s6 (F := F)) V (Proc.devRef .tc main_arg0) = V (Proc.devRef .tc main_arg0) := by
  after_results

theorem s0_arg1 : after (s0 (F := F)) V (Proc.devRef .tc main_arg1) = V (Proc.devRef .tc main_arg1) := by
  after_results

theorem s1_arg1 : after (s1 (F := F)) V (Proc.devRef .tc main_arg1) = V (Proc.devRef .tc main_arg1) := by
  after_results

theorem s2_arg1 : after (s2 (F := F)) V (Proc.devRef .tc main_arg1) = V (Proc.devRef .tc main_arg1) := by
  after_results

theorem s3_arg1 : after (s3 (F := F)) V (Proc.devRef .tc main_arg1) = V (Proc.devRef .tc main_arg1) := by
  after_results

theorem s4_arg1 : after (s4 (F := F)) V (Proc.devRef .tc main_arg1) = V (Proc.devRef .tc main_arg1) := by
  after_results

theorem s5_arg1 : after (s5 (F := F)) V (Proc.devRef .tc main_arg1) = V (Proc.devRef .tc main_arg1) := by
  after_results

theorem s6_arg1 : after (s6 (F := F)) V (Proc.devRef .tc main_arg1) = V (Proc.devRef .tc main_arg1) := by
  after_results

/-- The 87 operations, run from any contents `W`, leave in the result buffer the loss of the similarity matrix of
    `W`'s two arguments. -/
theorem loss_after (W : Valuation τ sig (Elt F)) :
    after (Cert.ReferenceIdeal.RunP.ops : List (HloOp τ sig (Elt F))) W (Proc.devRef .tc main_v43)
      = lossOf (F := F) (Cert.ReferenceIdeal.SimMax.refSim (F := F) (W (Proc.devRef .tc main_arg0)) (W (Proc.devRef .tc main_arg1))) := by
  rw [ops_eq, after_app, after_app, after_app, after_app, after_app, after_app]
  rw [s6_v43, s5_v24, s5_v7, s5_v4, s4_v7, s4_v5, s4_v4, s3_v6, s3_v5, s3_v4, s2_v5, s2_v3, s2_v4, s1_v4, s1_v3, s0_v3]
  rfl

/-- The 87 operations leave the first argument as it was. -/
theorem arg0_kept (W : Valuation τ sig (Elt F)) :
    after (Cert.ReferenceIdeal.RunP.ops : List (HloOp τ sig (Elt F))) W (Proc.devRef .tc main_arg0) = W (Proc.devRef .tc main_arg0) := by
  rw [ops_eq, after_app, after_app, after_app, after_app, after_app, after_app]
  rw [s6_arg0, s5_arg0, s4_arg0, s3_arg0, s2_arg0, s1_arg0, s0_arg0]

/-- The 87 operations leave the second argument as it was. -/
theorem arg1_kept (W : Valuation τ sig (Elt F)) :
    after (Cert.ReferenceIdeal.RunP.ops : List (HloOp τ sig (Elt F))) W (Proc.devRef .tc main_arg1) = W (Proc.devRef .tc main_arg1) := by
  rw [ops_eq, after_app, after_app, after_app, after_app, after_app, after_app]
  rw [s6_arg1, s5_arg1, s4_arg1, s3_arg1, s2_arg1, s1_arg1, s0_arg1]

end Cert.ReferenceIdeal.Loss

end
-- ==== Proof.SameLoss.lean ====
/-
  The 81 host lines after the kernel's call and the last 81 of the reference's operations are the same operations on
  the same shapes: as functions of the similarity matrix the two losses are one function (the two programs' shape
  records hold the same literals).
-/
import proofs.«153875_j13314398618441_1_alg».proof.Proof.IdealLoss
import proofs.«153875_j13314398618441_1_alg».proof.Proof.RefLoss

noncomputable section

namespace Cert.Proof.SameLoss

open Idealize.ShloMosaic

variable {F : FTy → Type} [FloatOps F]

theorem logSoftmaxRows_eq (x : (⟨Cert.KernelIdeal.S256x256, .f32⟩ : BufTy).Contents (Elt F)) :
    Cert.KernelIdeal.Loss.logSoftmaxRows (F := F) x = Cert.ReferenceIdeal.Loss.logSoftmaxRows (F := F) x := rfl

theorem negMeanDiag_eq (ls : (⟨Cert.KernelIdeal.S256x256, .f32⟩ : BufTy).Contents (Elt F))
    (i : (⟨Cert.KernelIdeal.S256, .i32⟩ : BufTy).Contents (Elt F)) :
    Cert.KernelIdeal.Loss.negMeanDiag (F := F) ls i = Cert.ReferenceIdeal.Loss.negMeanDiag (F := F) ls i := rfl

theorem lossOf_eq (sim : (⟨Cert.KernelIdeal.S256x256, .f32⟩ : BufTy).Contents (Elt F)) :
    Cert.KernelIdeal.Loss.lossOf (F := F) sim = Cert.ReferenceIdeal.Loss.lossOf (F := F) sim := by
  unfold Cert.KernelIdeal.Loss.lossOf Cert.ReferenceIdeal.Loss.lossOf
  rw [logSoftmaxRows_eq, logSoftmaxRows_eq, negMeanDiag_eq, negMeanDiag_eq]

end Cert.Proof.SameLoss

end
-- ==== Proof.lean ====
/-
  The certificate of the similarity-loss kernel against its jnp reference.
  Both programs compute, from v [256, 768] and T [256, 128, 768], the 256 x 256 matrix whose entry (i, j) is the maximum
  over the 128 tokens k of the dot product over d of v[i, ·] with T[j, k, ·], over the temperature 0.07, and from it the
  symmetric cross-entropy with diagonal targets. The kernel makes the matrix in one pallas_call — a 4 x 2 x 6 grid, the
  last axis walking six 128-wide slabs of d into a [64, 128, 128] accumulator, the maximum taken and divided when an
  accumulation closes — and the loss in 81 host operations; the reference contracts at once, divides every token-level
  entry, takes the maximum, and applies the same 81 operations. On the extended reals the two matrices are one: a sum
  is the sum of its slabs in any order, and dividing by a positive real is monotone and fixes −∞, so it commutes with
  the fold of max (no finiteness of the inputs is used). The loss is the same function of the matrix on both sides.
  The three frames: each kernel program's from its region's run continued by the later lines (nothing there writes
  an argument); the reference's from its straight-line run. The idealization rewrote nothing, so `preserves` is `True`.
-/
import proofs.«153875_j13314398618441_1_alg».proof.Defs
import proofs.«153875_j13314398618441_1_alg».proof.Proof.Gen.Kernel
import proofs.«153875_j13314398618441_1_alg».proof.Proof.Gen.KernelIdeal
import proofs.«153875_j13314398618441_1_alg».proof.Proof.Gen.ReferenceIdeal
import proofs.«153875_j13314398618441_1_alg».proof.Proof.Gen.Pre_finite_inputs
import proofs.«153875_j13314398618441_1_alg».proof.Proof.BitsFrame
import proofs.«153875_j13314398618441_1_alg».proof.Proof.IdealResult
import proofs.«153875_j13314398618441_1_alg».proof.Proof.RefLoss
import proofs.«153875_j13314398618441_1_alg».proof.Proof.SameLoss
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Region.frame m ρ

theorem frame_kernelIdeal : Cert.frame_KernelIdeal :=
  fun m ρ _ => Cert.KernelIdeal.Region.frame m ρ

/-- The reference is a straight line of host operations, none of which writes an argument. -/
theorem frame_referenceIdeal : Cert.frame_ReferenceIdeal :=
  fun m ρ _ => (θ_run Cert.ReferenceIdeal.defs _ _).mono
    (fun _ h c => ⟨(h c Cert.ReferenceIdeal.main_arg0).trans (Cert.ReferenceIdeal.Loss.arg0_kept (F := Ideal) _),
      (h c Cert.ReferenceIdeal.main_arg1).trans (Cert.ReferenceIdeal.Loss.arg1_kept (F := Ideal) _)⟩)
    (Cert.ReferenceIdeal.RunP.run_fold (F := Ideal) m ρ)

/-- Both programs end with the loss of the specification's similarity matrix of the (agreeing) arguments. -/
theorem algebraic : Cert.algebraic_KernelIdeal_ReferenceIdeal := by
  intro m ρ m' ρ' _ hagree
  refine ⟨fun c => Cert.KernelIdeal.Loss.lossOf (F := Ideal)
      (Cert.SimSpec.simMax (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.Region.run_value m ρ, ?_⟩
  refine (θ_run Cert.ReferenceIdeal.defs _ _).mono (fun r h c => ⟨?_,
      (h c Cert.ReferenceIdeal.main_arg0).trans (Cert.ReferenceIdeal.Loss.arg0_kept (F := Ideal) _),
      (h c Cert.ReferenceIdeal.main_arg1).trans (Cert.ReferenceIdeal.Loss.arg1_kept (F := Ideal) _)⟩)
    (Cert.ReferenceIdeal.RunP.run_fold (F := Ideal) m' ρ')
  refine (h c Cert.ReferenceIdeal.main_v43).trans ?_
  refine (Cert.ReferenceIdeal.Loss.loss_after (F := Ideal) _).trans ?_
  rw [Cert.ReferenceIdeal.SimMax.refSim_eq]
  have e0 : StableHlo.launchContents m' c (Proc.devRef .tc Cert.ReferenceIdeal.main_arg0)
      = m ((c.tc : Thread Cert.KernelIdeal.nD Cert.KernelIdeal.τ).loc Cert.KernelIdeal.main_arg0) := (hagree c).1
  have e1 : StableHlo.launchContents m' c (Proc.devRef .tc Cert.ReferenceIdeal.main_arg1)
      = m ((c.tc : Thread Cert.KernelIdeal.nD Cert.KernelIdeal.τ).loc Cert.KernelIdeal.main_arg1) := (hagree c).2
  rw [e0, e1]
  exact (Cert.Proof.SameLoss.lossOf_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
